-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S128x64 : Shape := ⟨2, ![128, 64]⟩
abbrev S128x128 : Shape := ⟨2, ![128, 128]⟩
abbrev S128 : Shape := ⟨1, ![128]⟩
abbrev S192x128 : Shape := ⟨2, ![192, 128]⟩
abbrev S192x64 : Shape := ⟨2, ![192, 64]⟩
abbrev S192 : Shape := ⟨1, ![192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x64 : S_.BroadcastsInDim S128x64 (![] : Fin 0 → Fin S128x64.rank)
  reducesTo_S128x64_S_d0_1 : S128x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg2 : IVec S1600000 32) (main_arg3 : IVec S1600000 32) (main_v48 : IVec S_ 1) (main_v50 : IVec S1600000 1) : IVec S_ 1 :=
  let main_c_19 : IVec S_ 1 := constantI S_ 1 1#1
  let main_v51 : IVec S_ 1 := (fun x v => Host.reduce IntOp.andi x v reducesTo_S1600000_S_d0 h_S_) main_v50 main_c_19
  let main_v52 : IVec S_ 1 := andi main_v48 main_v51
  let main_c_20 : IVec S_ 32 := constantI S_ 32 100000#32
  let main_v53 : IVec S1600000 32 := broadcastInDim S1600000 ![] bcast_S_S1600000 main_c_20
  let main_v54 : IVec S1600000 1 := cmpi .slt main_arg2 main_v53
  let main_c_21 : IVec S_ 1 := constantI S_ 1 1#1
  let main_v55 : IVec S_ 1 := (fun x v => Host.reduce IntOp.andi x v reducesTo_S1600000_S_d0 h_S_) main_v54 main_c_21
  let main_v56 : IVec S_ 1 := andi main_v52 main_v55
  let main_c_22 : IVec S_ 32 := constantI S_ 32 0#32
  let main_v57 : IVec S1600000 32 := broadcastInDim S1600000 ![] bcast_S_S1600000 main_c_22
  let main_v58 : IVec S1600000 1 := cmpi .sge main_arg3 main_v57
  let main_c_23 : IVec S_ 1 := constantI S_ 1 1#1
  let main_v59 : IVec S_ 1 := (fun x v => Host.reduce IntOp.andi x v reducesTo_S1600000_S_d0 h_S_) main_v58 main_c_23
  let main_v60 : IVec S_ 1 := andi main_v56 main_v59
  let main_c_24 : IVec S_ 32 := constantI S_ 32 100000#32
  let main_v61 : IVec S1600000 32 := broadcastInDim S1600000 ![] bcast_S_S1600000 main_c_24
  let main_v62 : IVec S1600000 1 := cmpi .slt main_arg3 main_v61
  let main_c_25 : IVec S_ 1 := constantI S_ 1 1#1
  let main_v63 : IVec S_ 1 := (fun x v => Host.reduce IntOp.andi x v reducesTo_S1600000_S_d0 h_S_) main_v62 main_c_25
  let main_v64 : IVec S_ 1 := andi main_v60 main_v63
  main_v64

def fn_part2 {F : FTy → Type} [FloatOps F] (main_arg2 : IVec S1600000 32) (main_arg3 : IVec S1600000 32) (main_arg10 : FVec F S192x64 .f32) (main_arg11 : FVec F S192 .f32) (main_arg12 : FVec F S192 .f32) (main_v33 : IVec S_ 1) : IVec S_ 1 :=
  let main_v34 : FVec F S192x64 .f32 := Host.absf main_arg10
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S192 .f32 := Host.absf main_arg11
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S192 .f32 := Host.absf main_arg12
  let main_cst_16 : FVec F S_ .f32 := constant S_ .f32 0x7F800000#32
  let main_v45 : FVec F S192 .f32 := broadcastInDim S192 ![] bcast_S_S192 main_cst_16
  let main_v46 : IVec S192 1 := cmpf .olt main_v44 main_v45
  let main_c_17 : IVec S_ 1 := constantI S_ 1 1#1
  let main_v47 : IVec S_ 1 := (fun x v => Host.reduce IntOp.andi x v reducesTo_S192_S_d0 h_S_) main_v46 main_c_17
  let main_v48 : IVec S_ 1 := andi main_v43 main_v47
  let main_c_18 : IVec S_ 32 := constantI S_ 32 0#32
  let main_v49 : IVec S1600000 32 := broadcastInDim S1600000 ![] bcast_S_S1600000 main_c_18
  let main_v50 : IVec S1600000 1 := cmpi .sge main_arg2 main_v49
  fn_part3 (F := F) main_arg2 main_arg3 main_v48 main_v50

def fn_part1 {F : FTy → Type} [FloatOps F] (main_arg2 : IVec S1600000 32) (main_arg3 : IVec S1600000 32) (main_arg7 : FVec F S128x128 .f32) (main_arg8 : FVec F S128 .f32) (main_arg9 : FVec F S192x128 .f32) (main_arg10 : FVec F S192x64 .f32) (main_arg11 : FVec F S192 .f32) (main_arg12 : FVec F S192 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x128 .f32 := Host.absf main_arg9
  let main_cst_10 : FVec F S_ .f32 := constant S_ .f32 0x7F800000#32
  let main_v30 : FVec F S192x128 .f32 := broadcastInDim S192x128 ![] bcast_S_S192x128 main_cst_10
  let main_v31 : IVec S192x128 1 := cmpf .olt main_v29 main_v30
  let main_c_11 : IVec S_ 1 := constantI S_ 1 1#1
  let main_v32 : IVec S_ 1 := (fun x v => Host.reduce IntOp.andi x v reducesTo_S192x128_S_d0_1 h_S_) main_v31 main_c_11
  let main_v33 : IVec S_ 1 := andi main_v28 main_v32
  fn_part2 (F := F) main_arg2 main_arg3 main_arg10 main_arg11 main_arg12 main_v33

def fn {F : FTy → Type} [FloatOps F] (main_arg0 : FVec F S100000x64 .f32) (main_arg1 : FVec F S1600000x64 .f32) (main_arg2 : IVec S1600000 32) (main_arg3 : IVec S1600000 32) (main_arg4 : IVec S100000 1) (main_arg5 : FVec F S128x64 .f32) (main_arg6 : FVec F S128x64 .f32) (main_arg7 : FVec F S128x128 .f32) (main_arg8 : FVec F S128 .f32) (main_arg9 : FVec F S192x128 .f32) (main_arg10 : FVec F S192x64 .f32) (main_arg11 : FVec F S192 .f32) (main_arg12 : FVec F S192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg6
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg2 main_arg3 main_arg7 main_arg8 main_arg9 main_arg10 main_arg11 main_arg12 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S128x64 : Shape := ⟨2, ![128, 64]⟩
abbrev S128x128 : Shape := ⟨2, ![128, 128]⟩
abbrev S128 : Shape := ⟨1, ![128]⟩
abbrev S192x128 : Shape := ⟨2, ![192, 128]⟩
abbrev S192x64 : Shape := ⟨2, ![192, 64]⟩
abbrev S192 : Shape := ⟨1, ![192]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1x128 : Shape := ⟨2, ![1, 128]⟩
abbrev S1600000x128 : Shape := ⟨2, ![1600000, 128]⟩
abbrev S6400x64 : Shape := ⟨2, ![6400, 64]⟩
abbrev S6400x128 : Shape := ⟨2, ![6400, 128]⟩
abbrev S64x128 : Shape := ⟨2, ![64, 128]⟩
abbrev S100000x128 : Shape := ⟨2, ![100000, 128]⟩
abbrev S1x192 : Shape := ⟨2, ![1, 192]⟩
abbrev S2000x128 : Shape := ⟨2, ![2000, 128]⟩
abbrev S2000x64 : Shape := ⟨2, ![2000, 64]⟩
abbrev S128x192 : Shape := ⟨2, ![128, 192]⟩
abbrev S2000x192 : Shape := ⟨2, ![2000, 192]⟩
abbrev S64x192 : Shape := ⟨2, ![64, 192]⟩
abbrev S100000x1 : Shape := ⟨2, ![100000, 1]⟩

abbrev nBuf : Space → Nat
  | .hbm => 89
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S100000, .i1⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S192x64, .f32⟩
  | .hbm, ⟨11, _⟩ => ⟨S192, .f32⟩
  | .hbm, ⟨12, _⟩ => ⟨S192, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1, .i32⟩
  | .hbm, ⟨22, _⟩ => ⟨S_, .i32⟩
  | .hbm, ⟨23, _⟩ => ⟨S1600000x1, .i32⟩
  | .hbm, ⟨24, _⟩ => ⟨S1600000x1, .i1⟩
  | .hbm, ⟨25, _⟩ => ⟨S1x1, .i32⟩
  | .hbm, ⟨26, _⟩ => ⟨S1600000x1, .i32⟩
  | .hbm, ⟨27, _⟩ => ⟨S1600000x1, .i1⟩
  | .hbm, ⟨28, _⟩ => ⟨S1600000x1, .i1⟩
  | .hbm, ⟨29, _⟩ => ⟨S_, .i1⟩
  | .hbm, ⟨30, _⟩ => ⟨S1600000, .i1⟩
  | .hbm, ⟨31, _⟩ => ⟨S1600000x64, .f32⟩
  | .hbm, ⟨32, _⟩ => ⟨S1600000x64, .i1⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1, .i32⟩
  | .hbm, ⟨45, _⟩ => ⟨S_, .i32⟩
  | .hbm, ⟨46, _⟩ => ⟨S1600000x1, .i32⟩
  | .hbm, ⟨47, _⟩ => ⟨S1600000x1, .i1⟩
  | .hbm, ⟨48, _⟩ => ⟨S1x1, .i32⟩
  | .hbm, ⟨49, _⟩ => ⟨S1600000x1, .i32⟩
  | .hbm, ⟨50, _⟩ => ⟨S1600000x1, .i1⟩
  | .hbm, ⟨51, _⟩ => ⟨S1600000x1, .i1⟩
  | .hbm, ⟨52, _⟩ => ⟨S_, .i1⟩
  | .hbm, ⟨53, _⟩ => ⟨S1600000, .i1⟩
  | .hbm, ⟨54, _⟩ => ⟨S1600000x64, .f32⟩
  | .hbm, ⟨55, _⟩ => ⟨S1600000x64, .i1⟩
  | .hbm, ⟨56, _⟩ => ⟨S_, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .bf16⟩
  | .hbm, ⟨61, _⟩ => ⟨S1x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S100000x128, .f32⟩
  | .hbm, ⟨83, _⟩ => ⟨S1x192, .f32⟩
  | .hbm, ⟨84, _⟩ => ⟨S1x192, .f32⟩
  | .hbm, ⟨85, _⟩ => ⟨S100000x64, .f32⟩
  | .hbm, ⟨86, _⟩ => ⟨S100000x1, .i1⟩
  | .hbm, ⟨87, _⟩ => ⟨S100000x64, .i1⟩
  | .hbm, ⟨88, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x64, .bf16⟩
  | .local _ .vmem, ⟨3, _⟩ => ⟨S6400x64, .bf16⟩
  | .local _ .vmem, ⟨4, _⟩ => ⟨S128x64, .f32⟩
  | .local _ .vmem, ⟨5, _⟩ => ⟨S128x64, .f32⟩
  | .local _ .vmem, ⟨6, _⟩ => ⟨S128x128, .f32⟩
  | .local _ .vmem, ⟨7, _⟩ => ⟨S1x128, .f32⟩
  | .local _ .vmem, ⟨8, _⟩ => ⟨S6400x128, .f32⟩
  | .local _ .vmem, ⟨9, _⟩ => ⟨S6400x128, .f32⟩
  | .local _ .vmem, ⟨10, _⟩ => ⟨S2000x128, .f32⟩
  | .local _ .vmem, ⟨11, _⟩ => ⟨S2000x128, .f32⟩
  | .local _ .vmem, ⟨12, _⟩ => ⟨S2000x64, .f32⟩
  | .local _ .vmem, ⟨13, _⟩ => ⟨S2000x64, .f32⟩
  | .local _ .vmem, ⟨14, _⟩ => ⟨S192x128, .f32⟩
  | .local _ .vmem, ⟨15, _⟩ => ⟨S192x64, .f32⟩
  | .local _ .vmem, ⟨16, _⟩ => ⟨S1x192, .f32⟩
  | .local _ .vmem, ⟨17, _⟩ => ⟨S1x192, .f32⟩
  | .local _ .vmem, ⟨18, _⟩ => ⟨S2000x64, .f32⟩
  | .local _ .vmem, ⟨19, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v1 : Ref sig .tc := ⟨.hbm, 58, rfl⟩
abbrev main_v2 : Ref sig .tc := ⟨.hbm, 59, rfl⟩
abbrev main_v3 : Ref sig .tc := ⟨.hbm, 60, rfl⟩
abbrev main_v4 : Ref sig .tc := ⟨.hbm, 61, rfl⟩
abbrev main_v5 : Ref sig .tc := ⟨.hbm, 62, rfl⟩
abbrev main_cst : Ref sig .tc := ⟨.hbm, 63, rfl⟩
abbrev main_v6 : Ref sig .tc := ⟨.hbm, 64, rfl⟩
abbrev main_c : Ref sig .tc := ⟨.hbm, 65, rfl⟩
abbrev main_v7 : Ref sig .tc := ⟨.hbm, 66, rfl⟩
abbrev main_v8 : Ref sig .tc := ⟨.hbm, 67, rfl⟩
abbrev main_c_0 : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_v12 : Ref sig .tc := ⟨.hbm, 72, rfl⟩
abbrev main_v13 : Ref sig .tc := ⟨.hbm, 73, rfl⟩
abbrev main_c_1 : Ref sig .tc := ⟨.hbm, 74, rfl⟩
abbrev main_v14 : Ref sig .tc := ⟨.hbm, 75, rfl⟩
abbrev main_v15 : Ref sig .tc := ⟨.hbm, 76, rfl⟩
abbrev main_c_2 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_call2_v0 : Ref sig .tc := ⟨.hbm, 87, rfl⟩
abbrev main_v25 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bitsLt_bf16_f32 : FTy.bits .bf16 < FTy.bits .f32
  shapeCasts_S128_S1x128 : S128.ShapeCasts S1x128
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  bcast_S_S100000x128 : S_.BroadcastsInDim S100000x128 (![] : Fin 0 → Fin S100000x128.rank)
  shapeCasts_S192_S1x192 : S192.ShapeCasts S1x192
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  inb_S192x128_S192x128_0_0 : ∀ a, (![0, 0] : Fin 2 → Nat) a + S192x128.size a ≤ S192x128.size a
  h_S192x128 : 0 < S192x128.numel
  inb_S192x64_S192x64_0_0 : ∀ a, (![0, 0] : Fin 2 → Nat) a + S192x64.size a ≤ S192x64.size a
  h_S192x64 : 0 < S192x64.numel
  transposes_S192x128_p1_0_S128x192 : S192x128.Transposes [1, 0] S128x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  transposes_S192x64_p1_0_S64x192 : S192x64.Transposes [1, 0] S64x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  dot_S6400x64_S64x128_S6400x128_1_0_0_1_n_n_wf : DotDims.WF S6400x64 S64x128 S6400x128 [1] [0] [0] [1] [] []
  dot_S6400x128_S128x128_S6400x128_1_0_0_1_n_n_wf : DotDims.WF S6400x128 S128x128 S6400x128 [1] [0] [0] [1] [] []
  scatter_S100000x128_S1600000x1_S1600000x128_1_0_0_1_wf : ScatterDims.WF S100000x128 S1600000x1 S1600000x128 [1] [0] [0] 1
  dot_S2000x128_S128x192_S2000x192_1_0_0_1_n_n_wf : DotDims.WF S2000x128 S128x192 S2000x192 [1] [0] [0] [1] [] []
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .bf16 = 32 ∨ (Rect.block (s := S1600000x64) S6400x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S1600000x128.size a
  hwx0_6 : ∀ i : grid0.Coords, EltTy.bits .f32 = 32 ∨ (Rect.block (s := S1600000x128) S6400x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x128.size a ≤ S192x128.size a
  hwx1_2 : ∀ i : grid1.Coords, EltTy.bits .f32 = 32 ∨ (Rect.block (s := S192x128) S192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x64.size a ≤ S192x64.size a
  hwx1_3 : ∀ i : grid1.Coords, EltTy.bits .f32 = 32 ∨ (Rect.block (s := S192x64) S192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x192.size a ≤ S1x192.size a
  hwx1_4 : ∀ i : grid1.Coords, EltTy.bits .f32 = 32 ∨ (Rect.block (s := S1x192) S1x192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x192.size a ≤ S1x192.size a
  hwx1_5 : ∀ i : grid1.Coords, EltTy.bits .f32 = 32 ∨ (Rect.block (s := S1x192) S1x192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x128_S6400x128_1_0_0_1_n_n : DotDims S6400x64 S64x128 S6400x128 where
  lhsContracting := [1]
  rhsContracting := [0]
  lhsNonContracting := [0]
  rhsNonContracting := [1]
  lhsBatch := []
  rhsBatch := []
  wf := dot_S6400x64_S64x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x192_S2000x192_1_0_0_1_n_n : DotDims S2000x128 S128x192 S2000x192 where
  lhsContracting := [1]
  rhsContracting := [0]
  lhsNonContracting := [0]
  rhsNonContracting := [1]
  lhsBatch := []
  rhsBatch := []
  wf := dot_S2000x128_S128x192_S2000x192_1_0_0_1_n_n_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg1) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v23) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S128x64 : Shape := ⟨2, ![128, 64]⟩
abbrev S128x128 : Shape := ⟨2, ![128, 128]⟩
abbrev S128 : Shape := ⟨1, ![128]⟩
abbrev S192x128 : Shape := ⟨2, ![192, 128]⟩
abbrev S192x64 : Shape := ⟨2, ![192, 64]⟩
abbrev S192 : Shape := ⟨1, ![192]⟩
abbrev S64x128 : Shape := ⟨2, ![64, 128]⟩
abbrev S1600000x128 : Shape := ⟨2, ![1600000, 128]⟩
abbrev S100000x128 : Shape := ⟨2, ![100000, 128]⟩
abbrev S_ : Shape := ⟨0, ![]⟩
abbrev S1600000x1 : Shape := ⟨2, ![1600000, 1]⟩
abbrev S1x128 : Shape := ⟨2, ![1, 128]⟩
abbrev S128x192 : Shape := ⟨2, ![128, 192]⟩
abbrev S100000x192 : Shape := ⟨2, ![100000, 192]⟩
abbrev S1x192 : Shape := ⟨2, ![1, 192]⟩
abbrev S64x192 : Shape := ⟨2, ![64, 192]⟩
abbrev S100000x1 : Shape := ⟨2, ![100000, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S100000, .i1⟩
  | .hbm, ⟨5, _⟩ => ⟨S128x64, .f32⟩
  | .hbm, ⟨6, _⟩ => ⟨S128x64, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S192x64, .f32⟩
  | .hbm, ⟨11, _⟩ => ⟨S192, .f32⟩
  | .hbm, ⟨12, _⟩ => ⟨S192, .f32⟩
  | .hbm, ⟨13, _⟩ => ⟨S64x128, .f32⟩
  | .hbm, ⟨14, _⟩ => ⟨S1600000x128, .f32⟩
  | .hbm, ⟨15, _⟩ => ⟨S64x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S128x128, .f32⟩
  | .hbm, ⟨39, _⟩ => ⟨S1600000x128, .f32⟩
  | .hbm, ⟨40, _⟩ => ⟨S1x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S100000x128, .f32⟩
  | .hbm, ⟨63, _⟩ => ⟨S128x192, .f32⟩
  | .hbm, ⟨64, _⟩ => ⟨S100000x192, .f32⟩
  | .hbm, ⟨65, _⟩ => ⟨S1x192, .f32⟩
  | .hbm, ⟨66, _⟩ => ⟨S100000x192, .f32⟩
  | .hbm, ⟨67, _⟩ => ⟨S100000x192, .f32⟩
  | .hbm, ⟨68, _⟩ => ⟨S64x192, .f32⟩
  | .hbm, ⟨69, _⟩ => ⟨S100000x192, .f32⟩
  | .hbm, ⟨70, _⟩ => ⟨S1x192, .f32⟩
  | .hbm, ⟨71, _⟩ => ⟨S100000x192, .f32⟩
  | .hbm, ⟨72, _⟩ => ⟨S100000x192, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S100000x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S100000x1, .i1⟩
  | .hbm, ⟨107, _⟩ => ⟨S100000x64, .i1⟩
  | .hbm, ⟨108, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_7 : Ref sig .tc := ⟨.hbm, 82, rfl⟩
abbrev main_v60 : Ref sig .tc := ⟨.hbm, 83, rfl⟩
abbrev main_v61 : Ref sig .tc := ⟨.hbm, 84, rfl⟩
abbrev main_cst_8 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_cst_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_call0_v0 : Ref sig .tc := ⟨.hbm, 107, rfl⟩
abbrev main_v80 : Ref sig .tc := ⟨.hbm, 108, rfl⟩

abbrev nD : Nat := 1
abbrev τ : Topo := Topo.v7x

variable {F : FTy → Type} [FloatOps F]

class Facts₀ : Prop where
  transposes_S128x64_S64x128_1_0 : S128x64.Transposes [1, 0] S64x128
  bcast_S_S1600000 : S_.BroadcastsInDim S1600000 (![] : Fin 0 → Fin S1600000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  transposes_S192x128_S128x192_1_0 : S192x128.Transposes [1, 0] S128x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  transposes_S192x64_S64x192_1_0 : S192x64.Transposes [1, 0] S64x192
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S1600000x64_S64x128_S1600000x128_1_0_0_1_n_n_wf : DotDims.WF S1600000x64 S64x128 S1600000x128 [1] [0] [0] [1] [] []
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  dot_S100000x128_S128x192_S100000x192_1_0_0_1_n_n_wf : DotDims.WF S100000x128 S128x192 S100000x192 [1] [0] [0] [1] [] []
  dot_S100000x64_S64x192_S100000x192_1_0_0_1_n_n_wf : DotDims.WF S100000x64 S64x192 S100000x192 [1] [0] [0] [1] [] []

variable [Facts₀]

def dot_S1600000x64_S64x128_S1600000x128_1_0_0_1_n_n : DotDims S1600000x64 S64x128 S1600000x128 where
  lhsContracting := [1]
  rhsContracting := [0]
  lhsNonContracting := [0]
  rhsNonContracting := [1]
  lhsBatch := []
  rhsBatch := []
  wf := dot_S1600000x64_S64x128_S1600000x128_1_0_0_1_n_n_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x192_S100000x192_1_0_0_1_n_n : DotDims S100000x128 S128x192 S100000x192 where
  lhsContracting := [1]
  rhsContracting := [0]
  lhsNonContracting := [0]
  rhsNonContracting := [1]
  lhsBatch := []
  rhsBatch := []
  wf := dot_S100000x128_S128x192_S100000x192_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.HostFns.lean ====
/-
  The host functions around the two kernels, named: the index wrap, the in-table test, the row lookup with its
  fill word, and the two scatter-adds of the messages.
-/
import proofs.«417138_j76501957477037_3_alg».proof.Proof.Gen.KernelIdeal
import Idealize.ShloMosaic.PureOps.Ideal

noncomputable section

namespace Cert.KernelIdeal.HostGlue

open Idealize.ShloMosaic Idealize.ShloMosaic.TcCoe
open Cert.KernelIdeal Cert.KernelIdeal.Facts₀

/-! ## The host functions, named -/

/-- An index vector with its negative entries wrapped by the table's length, as a column of start indices. -/
def wrapIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- Which start indices lie inside the table, one bit per edge. -/
def inTable (s : IVec S1600000x1 32) : IVec S1600000 1 :=
  Host.reduce IntOp.andi
    (andi (cmpi .sge s (broadcastInDim S1600000x1 ![] bcast_S_S1600000x1 (constantI S_ 32 0#32)))
      (cmpi .sle s (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The row lookup: row `a e` of the table for each edge `e`, the fill word where the index is outside the table. -/
def takeRows {F : FTy → Type} [FloatOps F] (x : FVec F S100000x64 .f32) (a : IVec S1600000 32) : FVec F S1600000x64 .f32 :=
  select (broadcastInDim S1600000x64 ![0] bcast_S1600000_S1600000x64_0 (inTable (wrapIdx a)))
    (Host.gather gather_S100000x64_S1600000x1_S1600000x64_1_0_n_n_0_1_164 x (wrapIdx a))
    (broadcastInDim S1600000x64 ![] bcast_S_S1600000x64 (constant (F := F) S_ .f32 0x7FC00000#32))

/-- The two scatter-adds of the messages into a zero array: by destination, then by source. -/
def scatterBoth {F : FTy → Type} [FloatOps F] (aS aD : IVec S1600000 32) (msg : FVec F S1600000x128 .f32) : FVec F S100000x128 .f32 :=
  Host.scatterAdd scatter_S100000x128_S1600000x1_S1600000x128_1_0_0_1
    (Host.scatterAdd scatter_S100000x128_S1600000x1_S1600000x128_1_0_0_1
      (broadcastInDim S100000x128 ![] bcast_S_S100000x128 (constant (F := F) S_ .f32 0x00000000#32)) (wrapIdx aD) msg)
    (wrapIdx aS) msg

end Cert.KernelIdeal.HostGlue

end
-- ==== Proof.HostGlue.lean ====
/-
  What the host operations around the two kernels compute, read off the contents at each boundary of the run.

  Before the message kernel: the two row lookups of the node table (a row outside the table would be the fill
  word), their sum, and the bias as a row. Between the kernels: the two scatter-adds of the messages into a zero
  array, and the two GRU biases as rows. After the GRU kernel: the mask's select between the new and the old state.
-/
import proofs.«417138_j76501957477037_3_alg».proof.Proof.Gen.KernelIdeal.Frame
import proofs.«417138_j76501957477037_3_alg».proof.Proof.HostFns
import Idealize.ShloMosaic.Lib.StableHlo.Run
import Idealize.ShloMosaic.PureOps.Ideal

set_option maxRecDepth 16384

noncomputable section

namespace Cert.KernelIdeal.HostGlue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The arguments at the message kernel's entry -/

local macro "entry0" : tactic =>
  `(tactic| (show StableHlo.after hostOps0_2 (StableHlo.after hostOps0_1 (StableHlo.after hostOps0 _)) _ = _
             after_results_simp <;> rfl))

theorem W3_arg0 (c : Dev nD) : W3 m ρ c (Proc.devRef .tc main_arg0) = m ((c : Thread nD τ).loc main_arg0) := by entry0
theorem W3_arg1 (c : Dev nD) : W3 m ρ c (Proc.devRef .tc main_arg1) = m ((c : Thread nD τ).loc main_arg1) := by entry0
theorem W3_arg2 (c : Dev nD) : W3 m ρ c (Proc.devRef .tc main_arg2) = m ((c : Thread nD τ).loc main_arg2) := by entry0
theorem W3_arg3 (c : Dev nD) : W3 m ρ c (Proc.devRef .tc main_arg3) = m ((c : Thread nD τ).loc main_arg3) := by entry0
theorem W3_arg4 (c : Dev nD) : W3 m ρ c (Proc.devRef .tc main_arg4) = m ((c : Thread nD τ).loc main_arg4) := by entry0
theorem W3_arg5 (c : Dev nD) : W3 m ρ c (Proc.devRef .tc main_arg5) = m ((c : Thread nD τ).loc main_arg5) := by entry0
theorem W3_arg6 (c : Dev nD) : W3 m ρ c (Proc.devRef .tc main_arg6) = m ((c : Thread nD τ).loc main_arg6) := by entry0
theorem W3_arg7 (c : Dev nD) : W3 m ρ c (Proc.devRef .tc main_arg7) = m ((c : Thread nD τ).loc main_arg7) := by entry0
theorem W3_arg8 (c : Dev nD) : W3 m ρ c (Proc.devRef .tc main_arg8) = m ((c : Thread nD τ).loc main_arg8) := by entry0
theorem W3_arg9 (c : Dev nD) : W3 m ρ c (Proc.devRef .tc main_arg9) = m ((c : Thread nD τ).loc main_arg9) := by entry0
theorem W3_arg10 (c : Dev nD) : W3 m ρ c (Proc.devRef .tc main_arg10) = m ((c : Thread nD τ).loc main_arg10) := by entry0
theorem W3_arg11 (c : Dev nD) : W3 m ρ c (Proc.devRef .tc main_arg11) = m ((c : Thread nD τ).loc main_arg11) := by entry0
theorem W3_arg12 (c : Dev nD) : W3 m ρ c (Proc.devRef .tc main_arg12) = m ((c : Thread nD τ).loc main_arg12) := by entry0

/-- The bias of the second layer, as a row. -/
theorem W3_v4 (c : Dev nD) :
    W3 m ρ c (Proc.devRef .tc main_v4) = shapeCast S1x128 (m ((c : Thread nD τ).loc main_arg8)) shapeCasts_S128_S1x128 := by entry0

section Stretches
variable (W : Valuation τ sig (Elt F))

/-- Writing through a typed reference and reading back through it is the identity. -/
theorem ofBuf_toBuf {T : BufTy} (x : TRef sig T) (v : T.Contents (Elt F)) : x.ofBuf (x.toBuf v) = v := by
  obtain ⟨r, h, h2, h3⟩ := x
  subst h
  rfl

/-- At a buffer whose type is the value's by computation, reading and writing through the typed reference are the
    identity. -/
theorem ofBuf_arg0 (p1 p2 p3) : (TRef.of (T := ⟨S100000x64, .f32⟩) main_arg0 p1 p2 p3).ofBuf (W (Proc.devRef .tc main_arg0)) = W (Proc.devRef .tc main_arg0) := cast_eq _ _
theorem ofBuf_arg2 (p1 p2 p3) : (TRef.of (T := ⟨S1600000, .i32⟩) main_arg2 p1 p2 p3).ofBuf (W (Proc.devRef .tc main_arg2)) = W (Proc.devRef .tc main_arg2) := cast_eq _ _
theorem ofBuf_arg3 (p1 p2 p3) : (TRef.of (T := ⟨S1600000, .i32⟩) main_arg3 p1 p2 p3).ofBuf (W (Proc.devRef .tc main_arg3)) = W (Proc.devRef .tc main_arg3) := cast_eq _ _
theorem toBuf_v0 (p1 p2 p3) (v : (⟨S1600000x64, .f32⟩ : BufTy).Contents (Elt F)) : (TRef.of (T := ⟨S1600000x64, .f32⟩) main_v0 p1 p2 p3).toBuf v = v := cast_eq _ _
theorem toBuf_v1 (p1 p2 p3) (v : (⟨S1600000x64, .f32⟩ : BufTy).Contents (Elt F)) : (TRef.of (T := ⟨S1600000x64, .f32⟩) main_v1 p1 p2 p3).toBuf v = v := cast_eq _ _

set_option maxRecDepth 65536 in
set_option maxHeartbeats 8000000 in
/-- The first stretch is the lookup by source. -/
theorem take_src : StableHlo.after hostOps0 W (Proc.devRef .tc main_v0)
    = takeRows (W (Proc.devRef .tc main_arg0)) (W (Proc.devRef .tc main_arg2)) := by
  unfold takeRows inTable wrapIdx
  after_results_simp
  simp only [ofBuf_toBuf, ofBuf_arg0, ofBuf_arg2, toBuf_v0]

set_option maxRecDepth 65536 in
set_option maxHeartbeats 8000000 in
/-- The second stretch is the lookup by destination. -/
theorem take_dst : StableHlo.after hostOps0_1 W (Proc.devRef .tc main_v1)
    = takeRows (W (Proc.devRef .tc main_arg0)) (W (Proc.devRef .tc main_arg3)) := by
  unfold takeRows inTable wrapIdx
  after_results_simp
  simp only [ofBuf_toBuf, ofBuf_arg0, ofBuf_arg3, toBuf_v1]

/-- The second stretch leaves the first lookup and the arguments in place. -/
theorem keep_v0 : StableHlo.after hostOps0_1 W (Proc.devRef .tc main_v0) = W (Proc.devRef .tc main_v0) := by
  after_results_simp <;> rfl
theorem keep_arg0 : StableHlo.after hostOps0 W (Proc.devRef .tc main_arg0) = W (Proc.devRef .tc main_arg0) := by
  after_results_simp <;> rfl
theorem keep_arg3 : StableHlo.after hostOps0 W (Proc.devRef .tc main_arg3) = W (Proc.devRef .tc main_arg3) := by
  after_results_simp <;> rfl

/-- The third stretch sums the two lookups. -/
theorem sum_lookups : StableHlo.after hostOps0_2 W (Proc.devRef .tc main_v3)
    = truncf .bf16 (addf (W (Proc.devRef .tc main_v0)) (W (Proc.devRef .tc main_v1))) bitsLt_bf16_f32 := by
  after_results_simp <;> rfl

end Stretches

/-- The summed endpoint states: the lookup by source plus the lookup by destination. -/
theorem W3_v3 (c : Dev nD) :
    W3 m ρ c (Proc.devRef .tc main_v3)
      = truncf .bf16 (addf (takeRows (m ((c : Thread nD τ).loc main_arg0)) (m ((c : Thread nD τ).loc main_arg2)))
          (takeRows (m ((c : Thread nD τ).loc main_arg0)) (m ((c : Thread nD τ).loc main_arg3)))) bitsLt_bf16_f32 := by
  refine (sum_lookups (W2 m ρ c)).trans ?_
  rw [show W2 m ρ c (Proc.devRef .tc main_v0) = _ from keep_v0 (W1 m ρ c),
    show W2 m ρ c (Proc.devRef .tc main_v1) = _ from take_dst (W1 m ρ c),
    show W1 m ρ c (Proc.devRef .tc main_v0) = _ from take_src (W0 m ρ c),
    show W1 m ρ c (Proc.devRef .tc main_arg0) = _ from keep_arg0 (W0 m ρ c),
    show W1 m ρ c (Proc.devRef .tc main_arg3) = _ from keep_arg3 (W0 m ρ c)]

/-! ## At the message kernel's exit: only its output array has changed -/

theorem W4_arg0 (c : Dev nD) : W4 m ρ c (Proc.devRef .tc main_arg0) = m ((c : Thread nD τ).loc main_arg0) :=
  (W4_of_ne m ρ c main_arg0 (by decide)).trans (W3_arg0 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)

/-- The messages: the kernel's output array after its last grid point. -/
theorem W4_v5 (c : Dev nD) : W4 m ρ c (Proc.devRef .tc main_v5) = (dat0 (V3 m ρ) c).arrAt 6 cfg0.N := W4_arr m ρ c 6

/-! ## The GRU kernel's entry -/

local macro "entry1" : tactic =>
  `(tactic| (show StableHlo.after hostOps1 _ _ = _
             after_results_simp <;> rfl))

theorem W5_arg0 (c : Dev nD) : W5 m ρ c (Proc.devRef .tc main_arg0) = m ((c : Thread nD τ).loc main_arg0) :=
  (show StableHlo.after hostOps1 _ _ = W4 m ρ c (Proc.devRef .tc main_arg0) by after_results_simp <;> rfl).trans (W4_arg0 m ρ c)
theorem W5_arg4 (c : Dev nD) : W5 m ρ c (Proc.devRef .tc main_arg4) = m ((c : Thread nD τ).loc main_arg4) :=
  (show StableHlo.after hostOps1 _ _ = W4 m ρ c (Proc.devRef .tc main_arg4) by after_results_simp <;> rfl).trans (W4_arg4 m ρ c)
theorem W5_arg9 (c : Dev nD) : W5 m ρ c (Proc.devRef .tc main_arg9) = m ((c : Thread nD τ).loc main_arg9) :=
  (show StableHlo.after hostOps1 _ _ = W4 m ρ c (Proc.devRef .tc main_arg9) by after_results_simp <;> rfl).trans (W4_arg9 m ρ c)
theorem W5_arg10 (c : Dev nD) : W5 m ρ c (Proc.devRef .tc main_arg10) = m ((c : Thread nD τ).loc main_arg10) :=
  (show StableHlo.after hostOps1 _ _ = W4 m ρ c (Proc.devRef .tc main_arg10) by after_results_simp <;> rfl).trans (W4_arg10 m ρ c)

/-- The summed messages per node. -/
theorem W5_v20 (c : Dev nD) :
    W5 m ρ c (Proc.devRef .tc main_v20)
      = scatterBoth (m ((c : Thread nD τ).loc main_arg2)) (m ((c : Thread nD τ).loc main_arg3)) ((dat0 (V3 m ρ) c).arrAt 6 cfg0.N) := by
  rw [← W4_v5 m ρ c, ← W4_arg2 m ρ c, ← W4_arg3 m ρ c]
  entry1

/-- The two GRU biases, as rows. -/
theorem W5_v21 (c : Dev nD) :
    W5 m ρ c (Proc.devRef .tc main_v21) = shapeCast S1x192 (m ((c : Thread nD τ).loc main_arg11)) shapeCasts_S192_S1x192 := by
  rw [← W4_arg11 m ρ c]
  entry1
theorem W5_v22 (c : Dev nD) :
    W5 m ρ c (Proc.devRef .tc main_v22) = shapeCast S1x192 (m ((c : Thread nD τ).loc main_arg12)) shapeCasts_S192_S1x192 := by
  rw [← W4_arg12 m ρ c]
  entry1

/-! ## After the GRU kernel -/

/-- The new states: the kernel's output array after its last grid point. -/
theorem W6_v23 (c : Dev nD) : W6 m ρ c (Proc.devRef .tc main_v23) = (dat1 (V5 m ρ) c).arrAt 6 cfg1.N := W6_arr m ρ c 6

theorem W6_arg0 (c : Dev nD) : W6 m ρ c (Proc.devRef .tc main_arg0) = m ((c : Thread nD τ).loc main_arg0) :=
  ((W6_arr m ρ c 1).trans (((dat1 (V5 m ρ) c).arrAt_in 1 rfl _).trans (A_eq1 (V5 m ρ) c 1))).trans (W5_arg0 m ρ c)
theorem W6_arg4 (c : Dev nD) : W6 m ρ c (Proc.devRef .tc main_arg4) = m ((c : Thread nD τ).loc main_arg4) :=
  (W6_of_ne m ρ c main_arg4 (by decide)).trans (W5_arg4 m ρ c)

set_option maxRecDepth 65536 in
set_option maxHeartbeats 8000000 in
/-- The result buffer: where the mask is set the GRU kernel's output, elsewhere the old state. -/
theorem result_eq (c : Dev nD) :
    W8 m ρ c (Proc.devRef .tc main_v25)
      = select (broadcastInDim S100000x64 ![0, 1] bcast_S100000x1_S100000x64_0_1
          (broadcastInDim S100000x1 ![0] bcast_S100000_S100000x1_0 (m ((c : Thread nD τ).loc main_arg4))))
          ((dat1 (V5 m ρ) c).arrAt 6 cfg1.N) (m ((c : Thread nD τ).loc main_arg0)) :=
  (show StableHlo.after hostOps2_1 (StableHlo.after hostOps2 (W6 m ρ c)) (Proc.devRef .tc main_v25)
      = select (broadcastInDim S100000x64 ![0, 1] bcast_S100000x1_S100000x64_0_1
          (broadcastInDim S100000x1 ![0] bcast_S100000_S100000x1_0 (W6 m ρ c (Proc.devRef .tc main_arg4))))
          (W6 m ρ c (Proc.devRef .tc main_v23)) (W6 m ρ c (Proc.devRef .tc main_arg0)) by
    after_results
    rfl).trans (by rw [W6_v23 m ρ c, W6_arg0 m ρ c, W6_arg4 m ρ c])

end Cert.KernelIdeal.HostGlue

end
-- ==== Proof.Spec.lean ====
/-
  The two row functions of the message-passing step, as plain formulas over the extended reals.

  One edge's message: with `xs` the sum of the edge's two endpoint states and `ef` its features,
    pre k  = (∑ k', xs k' · Wn[k, k']) + (∑ k', ef k' · Wf[k, k'])          (k < 128)
    msg j  = (∑ k, tanh (pre k) · W2[j, k]) + b2 j                          (j < 128).
  One node's GRU update from its summed incoming messages `x` (128 wide) and its state `h` (64 wide):
    gi g = (∑ k, x k · Wih[g, k]) + bih g,   gh g = (∑ k, h k · Whh[g, k]) + bhh g     (g < 192)
    r = σ (gi j + gh j),  z = σ (gi (64 + j) + gh (64 + j)),  n = tanh (gi (128 + j) + r · gh (128 + j))
    h' j = (1 − z) · n + z · h j                                                          (j < 64).
  The one algebraic law the certificate needs joins the two ways of projecting the endpoint sum:
  for finite entries, ∑ (a k + b k) · w k = ∑ a k · w k + ∑ b k · w k.
-/
import Idealize.ShloMosaic.PureOps.Ideal
import Idealize.ShloMosaic.Lib.ValueIdx

noncomputable section

namespace Cert.Spec

open Idealize.ShloMosaic Idealize.ShloMosaic.ValueIdx
open scoped BigOperators

/-- A rank-2 array of extended reals. -/
abbrev Arr2 (r c : ℕ) : Type := (⟨2, ![r, c]⟩ : Shape).Idx → EReal

/-- The f32 word of `1.0`, read at the ideal instance. -/
abbrev one32 : EReal := Ideal.ofBits .f32 0x3F800000#32

/-- The pre-activation of one edge at hidden unit `k`. -/
def preAct (xs ef : Fin 64 → EReal) (wn wf : Arr2 128 64) (k : Fin 128) : EReal :=
  (∑ k' : Fin 64, xs k' * wn (ix2 k k')) + ∑ k' : Fin 64, ef k' * wf (ix2 k k')

/-- One edge's message at output unit `j`, from the pre-activations. -/
def msgOfPre (pre : Fin 128 → EReal) (w2 : Arr2 128 128) (b2 : Fin 128 → EReal) (j : Fin 128) : EReal :=
  (∑ k : Fin 128, Ideal.tanh (pre k) * w2 (ix2 j k)) + b2 j

/-- One edge's message at output unit `j`. -/
def msgRow (xs ef : Fin 64 → EReal) (wn wf : Arr2 128 64) (w2 : Arr2 128 128) (b2 : Fin 128 → EReal) (j : Fin 128) : EReal :=
  msgOfPre (preAct xs ef wn wf) w2 b2 j

/-- The input-side gate pre-activation `g` of one node. -/
def gateI (x : Fin 128 → EReal) (wih : Arr2 192 128) (bih : Fin 192 → EReal) (g : Fin 192) : EReal :=
  (∑ k : Fin 128, x k * wih (ix2 g k)) + bih g

/-- The state-side gate pre-activation `g` of one node. -/
def gateH (h : Fin 64 → EReal) (whh : Arr2 192 64) (bhh : Fin 192 → EReal) (g : Fin 192) : EReal :=
  (∑ k : Fin 64, h k * whh (ix2 g k)) + bhh g

/-- The GRU cell from its six gate pre-activations and the old state entry. -/
def gruCell (ir hr iz hz inn hn h : EReal) : EReal :=
  (one32 - Ideal.logistic (iz + hz)) * Ideal.tanh (inn + Ideal.logistic (ir + hr) * hn) + Ideal.logistic (iz + hz) * h

/-- One node's new state at unit `j`. -/
def gruRow (x : Fin 128 → EReal) (h : Fin 64 → EReal) (wih : Arr2 192 128) (whh : Arr2 192 64)
    (bih bhh : Fin 192 → EReal) (j : Fin 64) : EReal :=
  gruCell (gateI x wih bih ⟨j.val, by omega⟩) (gateH h whh bhh ⟨j.val, by omega⟩)
    (gateI x wih bih ⟨j.val + 64, by omega⟩) (gateH h whh bhh ⟨j.val + 64, by omega⟩)
    (gateI x wih bih ⟨j.val + 128, by omega⟩) (gateH h whh bhh ⟨j.val + 128, by omega⟩) (h j)

/-- Finite entries: the projection of a sum of two rows is the sum of the two projections. -/
theorem sum_add_mul {K : ℕ} (a b w : Fin K → EReal) (ha : ∀ k, ∃ r : ℝ, a k = (r : EReal))
    (hb : ∀ k, ∃ r : ℝ, b k = (r : EReal)) (hw : ∀ k, ∃ r : ℝ, w k = (r : EReal)) :
    ∑ k : Fin K, (a k + b k) * w k = (∑ k : Fin K, a k * w k) + ∑ k : Fin K, b k * w k := by
  choose ar har using ha
  choose br hbr using hb
  choose wr hwr using hw
  have e : ∀ (f : Fin K → ℝ) (s : Finset (Fin K)), (∑ k ∈ s, ((f k : ℝ) : EReal)) = ((∑ k ∈ s, f k : ℝ) : EReal) := by
    intro f s
    induction s using Finset.induction_on with
    | empty => simp
    | insert x s hx ih => rw [Finset.sum_insert hx, Finset.sum_insert hx, ih, EReal.coe_add]
  have h1 : ∀ k, (a k + b k) * w k = (((ar k + br k) * wr k : ℝ) : EReal) := fun k => by
    rw [har k, hbr k, hwr k, ← EReal.coe_add, ← EReal.coe_mul]
  have h2 : ∀ k, a k * w k = ((ar k * wr k : ℝ) : EReal) := fun k => by rw [har k, hwr k, ← EReal.coe_mul]
  have h3 : ∀ k, b k * w k = ((br k * wr k : ℝ) : EReal) := fun k => by rw [hbr k, hwr k, ← EReal.coe_mul]
  simp only [h1, h2, h3]
  rw [e, e, e, ← EReal.coe_add]
  congr 1
  rw [← Finset.sum_add_distrib]
  exact Finset.sum_congr rfl fun k _ => by ring

end Cert.Spec

end
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Region1.lean ====
/-
  The GRU kernel's output array: row n of the result is node n's new state.
-/
import proofs.«417138_j76501957477037_3_alg».proof.Proof.Gen.KernelIdeal.Frame
import proofs.«417138_j76501957477037_3_alg».proof.Proof.Spec
import proofs.«417138_j76501957477037_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- The region's arrays as it finds them, at their literal types. -/
abbrev inArr (c : Dev nD) : Vec Ideal S100000x128 .f32 := V c (Pipeline.arrRef spec1 0)
abbrev hArr (c : Dev nD) : Vec Ideal S100000x64 .f32 := V c (Pipeline.arrRef spec1 1)
abbrev wihArr (c : Dev nD) : Vec Ideal S192x128 .f32 := V c (Pipeline.arrRef spec1 2)
abbrev whhArr (c : Dev nD) : Vec Ideal S192x64 .f32 := V c (Pipeline.arrRef spec1 3)
abbrev bihArr (c : Dev nD) : Vec Ideal S1x192 .f32 := V c (Pipeline.arrRef spec1 4)
abbrev bhhArr (c : Dev nD) : Vec Ideal S1x192 .f32 := V c (Pipeline.arrRef spec1 5)
/-- The output array after the last grid point. -/
abbrev outArr (c : Dev nD) : Vec Ideal S100000x64 .f32 := (dat1 (F := Ideal) V c).arrAt 6 cfg1.N

/-! ## The body's payload at an entry of a block -/

/-- The input-side pre-activations of a block of rows: the rows times the transposed input weights, plus the bias row. -/
def preI (v0 : Vec Ideal S2000x128 .f32) (v4 : Vec Ideal S192x128 .f32) (v10 : Vec Ideal S1x192 .f32) : FVec Ideal S2000x192 .f32 :=
  addf (matmul dot_S2000x128_S128x192_S2000x192_1_0_0_1_n_n none
      (truncf .bf16 (shapeCast S2000x128 v0 shapeCasts_S2000x128_S2000x128) bitsLt_bf16_f32)
      (transpose S128x192 [1, 0] (truncf .bf16 v4 bitsLt_bf16_f32) transposes_S192x128_p1_0_S128x192)
      (constant S2000x192 .f32 0x00000000#32))
    (broadcastTo S2000x192 (shapeCast S1x192 v10 shapeCasts_S1x192_S1x192) broadcasts_S1x192_S2000x192)

/-- The state-side pre-activations of a block of rows. -/
def preH (v3 : Vec Ideal S2000x64 .f32) (v6 : Vec Ideal S192x64 .f32) (v17 : Vec Ideal S1x192 .f32) : FVec Ideal S2000x192 .f32 :=
  addf (matmul dot_S2000x64_S64x192_S2000x192_1_0_0_1_n_n none
      (truncf .bf16 v3 bitsLt_bf16_f32)
      (transpose S64x192 [1, 0] (truncf .bf16 v6 bitsLt_bf16_f32) transposes_S192x64_p1_0_S64x192)
      (constant S2000x192 .f32 0x00000000#32))
    (broadcastTo S2000x192 (shapeCast S1x192 v17 shapeCasts_S1x192_S1x192) broadcasts_S1x192_S2000x192)

/-- Row `p`, gate `g` of the input-side pre-activations is the spec's input gate of that row. -/
theorem preI_apply (v0 : Vec Ideal S2000x128 .f32) (v4 : Vec Ideal S192x128 .f32) (v10 : Vec Ideal S1x192 .f32)
    (p : Fin 2000) (g : Fin 192) :
    preI v0 v4 v10 (ix2 p g) = Cert.Spec.gateI (fun k => v0 (ix2 p k)) v4 (fun g => v10 (ix2 0 g)) g := by
  show matmul (F := Ideal) dot_S2000x128_S128x192_S2000x192_1_0_0_1_n_n none
        (truncf .bf16 (shapeCast S2000x128 v0 shapeCasts_S2000x128_S2000x128) bitsLt_bf16_f32)
        (transpose S128x192 [1, 0] (truncf .bf16 v4 bitsLt_bf16_f32) transposes_S192x128_p1_0_S128x192)
        (constant S2000x192 .f32 0x00000000#32) (ix2 p g)
      + broadcastTo S2000x192 (shapeCast S1x192 v10 shapeCasts_S1x192_S1x192) broadcasts_S1x192_S2000x192 (ix2 p g)
    = (∑ k : Fin 128, v0 (ix2 p k) * v4 (ix2 g k)) + v10 (ix2 0 g)
  rw [Cert.LibRowOps.matmul_plain_apply dot_S2000x128_S128x192_S2000x192_1_0_0_1_n_n rfl, broadcastTo_1b_ab_apply]
  simp only [shapeCast_self]
  refine congrArg (· + v10 (ix2 0 g)) (Finset.sum_congr rfl fun k _ => ?_)
  show v0 (ix2 p k)
      * transpose S128x192 [1, 0] (truncf (F := Ideal) .bf16 v4 bitsLt_bf16_f32) transposes_S192x128_p1_0_S128x192 (ix2 k g) = _
  rw [transpose_ix2_apply]
  rfl

/-- Row `p`, gate `g` of the state-side pre-activations is the spec's state gate of that row. -/
theorem preH_apply (v3 : Vec Ideal S2000x64 .f32) (v6 : Vec Ideal S192x64 .f32) (v17 : Vec Ideal S1x192 .f32)
    (p : Fin 2000) (g : Fin 192) :
    preH v3 v6 v17 (ix2 p g) = Cert.Spec.gateH (fun k => v3 (ix2 p k)) v6 (fun g => v17 (ix2 0 g)) g := by
  show matmul (F := Ideal) dot_S2000x64_S64x192_S2000x192_1_0_0_1_n_n none
        (truncf .bf16 v3 bitsLt_bf16_f32)
        (transpose S64x192 [1, 0] (truncf .bf16 v6 bitsLt_bf16_f32) transposes_S192x64_p1_0_S64x192)
        (constant S2000x192 .f32 0x00000000#32) (ix2 p g)
      + broadcastTo S2000x192 (shapeCast S1x192 v17 shapeCasts_S1x192_S1x192) broadcasts_S1x192_S2000x192 (ix2 p g)
    = (∑ k : Fin 64, v3 (ix2 p k) * v6 (ix2 g k)) + v17 (ix2 0 g)
  rw [Cert.LibRowOps.matmul_plain_apply dot_S2000x64_S64x192_S2000x192_1_0_0_1_n_n rfl, broadcastTo_1b_ab_apply]
  simp only [shapeCast_self]
  refine congrArg (· + v17 (ix2 0 g)) (Finset.sum_congr rfl fun k _ => ?_)
  show v3 (ix2 p k)
      * transpose S64x192 [1, 0] (truncf (F := Ideal) .bf16 v6 bitsLt_bf16_f32) transposes_S192x64_p1_0_S64x192 (ix2 k g) = _
  rw [transpose_ix2_apply]
  rfl

/-- The body's payload at row `p`, unit `j` of a block is the spec's GRU row formula of row `p` of the blocks. -/
theorem pay_apply (v0 : Vec Ideal S2000x128 .f32) (v3 : Vec Ideal S2000x64 .f32) (v4 : Vec Ideal S192x128 .f32)
    (v6 : Vec Ideal S192x64 .f32) (v10 v17 : Vec Ideal S1x192 .f32) (p : Fin 2000) (j : Fin 64) :
    k1_pay1 (F := Ideal) v0 v3 v4 v6 v10 v17 (ix2 p j)
      = Cert.Spec.gruRow (fun k => v0 (ix2 p k)) (fun k => v3 (ix2 p k)) v4 v6 (fun g => v10 (ix2 0 g))
          (fun g => v17 (ix2 0 g)) j := by
  have sI0 := slice2_axis1_apply 0 (preI v0 v4 v10) slices_S2000x192_o0_0_S2000x64 p j ⟨j.val, by omega⟩ (Nat.zero_add _).symm
  have sI1 := slice2_axis1_apply 64 (preI v0 v4 v10) slices_S2000x192_o0_64_S2000x64 p j ⟨j.val + 64, by omega⟩ (Nat.add_comm _ _)
  have sI2 := slice2_axis1_apply 128 (preI v0 v4 v10) slices_S2000x192_o0_128_S2000x64 p j ⟨j.val + 128, by omega⟩ (Nat.add_comm _ _)
  have sH0 := slice2_axis1_apply 0 (preH v3 v6 v17) slices_S2000x192_o0_0_S2000x64 p j ⟨j.val, by omega⟩ (Nat.zero_add _).symm
  have sH1 := slice2_axis1_apply 64 (preH v3 v6 v17) slices_S2000x192_o0_64_S2000x64 p j ⟨j.val + 64, by omega⟩ (Nat.add_comm _ _)
  have sH2 := slice2_axis1_apply 128 (preH v3 v6 v17) slices_S2000x192_o0_128_S2000x64 p j ⟨j.val + 128, by omega⟩ (Nat.add_comm _ _)
  rw [preI_apply] at sI0 sI1 sI2
  rw [preH_apply] at sH0 sH1 sH2
  show (Cert.Spec.one32
        - Ideal.logistic (extractStridedSlice S2000x64 ![0, 64] (preI v0 v4 v10) slices_S2000x192_o0_64_S2000x64 (ix2 p j)
            + extractStridedSlice S2000x64 ![0, 64] (preH v3 v6 v17) slices_S2000x192_o0_64_S2000x64 (ix2 p j)))
      * Ideal.tanh (extractStridedSlice S2000x64 ![0, 128] (preI v0 v4 v10) slices_S2000x192_o0_128_S2000x64 (ix2 p j)
          + Ideal.logistic (extractStridedSlice S2000x64 ![0, 0] (preI v0 v4 v10) slices_S2000x192_o0_0_S2000x64 (ix2 p j)
              + extractStridedSlice S2000x64 ![0, 0] (preH v3 v6 v17) slices_S2000x192_o0_0_S2000x64 (ix2 p j))
            * extractStridedSlice S2000x64 ![0, 128] (preH v3 v6 v17) slices_S2000x192_o0_128_S2000x64 (ix2 p j))
      + Ideal.logistic (extractStridedSlice S2000x64 ![0, 64] (preI v0 v4 v10) slices_S2000x192_o0_64_S2000x64 (ix2 p j)
            + extractStridedSlice S2000x64 ![0, 64] (preH v3 v6 v17) slices_S2000x192_o0_64_S2000x64 (ix2 p j))
        * v3 (ix2 p j) = _
  rw [sI0, sI1, sI2, sH0, sH1, sH2]
  rfl

/-! ## Each window's block as rows of its array -/

/-- The block index maps over the 50 grid points: the three row windows (summed messages, states, output) sit at row
    block `t`, column block 0; the weight and bias windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of the summed-messages block at point `t` is row `2000 t + p` of the array. -/
theorem in_rows (c : Dev nD) (t : Fin cfg1.N) (p : Fin 2000) (k : Fin 128) (n : Fin 100000)
    (hn : n.val = 2000 * t.val + p.val) :
    (iblk1 V c 0 t : Vec Ideal S2000x128 .f32) (ix2 p k) = inArr V c (ix2 n k) := by
  obtain ⟨e0, e1, -⟩ := idx_facts t
  show inArr V c (((cfg1.win 0).blk t).view.emb (ix2 p k)) = inArr V c (ix2 n k)
  refine congrArg (inArr V c) (funext fun a => Fin.ext ?_)
  match a with
  | ⟨0, _⟩ => show win1_0.index t (0 : Fin 2) * 2000 + 1 * p.val = n.val; rw [e0, hn]; omega
  | ⟨1, _⟩ => show win1_0.index t (1 : Fin 2) * 128 + 1 * k.val = k.val; rw [e1]; omega

/-- Row `p` of the node-states block at point `t` is row `2000 t + p` of the array. -/
theorem h_rows (c : Dev nD) (t : Fin cfg1.N) (p : Fin 2000) (k : Fin 64) (n : Fin 100000)
    (hn : n.val = 2000 * t.val + p.val) :
    (iblk1 V c 1 t : Vec Ideal S2000x64 .f32) (ix2 p k) = hArr V c (ix2 n k) := by
  obtain ⟨-, -, e0, e1, -⟩ := idx_facts t
  show hArr V c (((cfg1.win 1).blk t).view.emb (ix2 p k)) = hArr V c (ix2 n k)
  refine congrArg (hArr V c) (funext fun a => Fin.ext ?_)
  match a with
  | ⟨0, _⟩ => show win1_1.index t (0 : Fin 2) * 2000 + 1 * p.val = n.val; rw [e0, hn]; omega
  | ⟨1, _⟩ => show win1_1.index t (1 : Fin 2) * 64 + 1 * k.val = k.val; rw [e1]; omega

/-- The input-weights block at every point is the whole array. -/
theorem wih_blk (c : Dev nD) (t : Fin cfg1.N) : (iblk1 V c 2 t : Vec Ideal S192x128 .f32) = wihArr V c := by
  obtain ⟨-, -, -, -, e0, e1, -⟩ := idx_facts t
  funext y
  show wihArr V c (((cfg1.win 2).blk t).view.emb y) = wihArr V c y
  refine congrArg (wihArr V c) (funext fun a => Fin.ext ?_)
  match a with
  | ⟨0, _⟩ => show win1_2.index t (0 : Fin 2) * 192 + 1 * (y 0).val = (y 0).val; rw [e0]; omega
  | ⟨1, _⟩ => show win1_2.index t (1 : Fin 2) * 128 + 1 * (y 1).val = (y 1).val; rw [e1]; omega

/-- The state-weights block at every point is the whole array. -/
theorem whh_blk (c : Dev nD) (t : Fin cfg1.N) : (iblk1 V c 3 t : Vec Ideal S192x64 .f32) = whhArr V c := by
  obtain ⟨-, -, -, -, -, -, e0, e1, -⟩ := idx_facts t
  funext y
  show whhArr V c (((cfg1.win 3).blk t).view.emb y) = whhArr V c y
  refine congrArg (whhArr V c) (funext fun a => Fin.ext ?_)
  match a with
  | ⟨0, _⟩ => show win1_3.index t (0 : Fin 2) * 192 + 1 * (y 0).val = (y 0).val; rw [e0]; omega
  | ⟨1, _⟩ => show win1_3.index t (1 : Fin 2) * 64 + 1 * (y 1).val = (y 1).val; rw [e1]; omega

/-- The input-bias block at every point is the whole one-row array. -/
theorem bih_blk (c : Dev nD) (t : Fin cfg1.N) : (iblk1 V c 4 t : Vec Ideal S1x192 .f32) = bihArr V c := by
  obtain ⟨-, -, -, -, -, -, -, -, e0, e1, -⟩ := idx_facts t
  funext y
  show bihArr V c (((cfg1.win 4).blk t).view.emb y) = bihArr V c y
  refine congrArg (bihArr V c) (funext fun a => Fin.ext ?_)
  match a with
  | ⟨0, _⟩ => show win1_4.index t (0 : Fin 2) * 1 + 1 * (y 0).val = (y 0).val; rw [e0]; omega
  | ⟨1, _⟩ => show win1_4.index t (1 : Fin 2) * 192 + 1 * (y 1).val = (y 1).val; rw [e1]; omega

/-- The state-bias block at every point is the whole one-row array. -/
theorem bhh_blk (c : Dev nD) (t : Fin cfg1.N) : (iblk1 V c 5 t : Vec Ideal S1x192 .f32) = bhhArr V c := by
  obtain ⟨-, -, -, -, -, -, -, -, -, -, e0, e1, -⟩ := idx_facts t
  funext y
  show bhhArr V c (((cfg1.win 5).blk t).view.emb y) = bhhArr V c y
  refine congrArg (bhhArr V c) (funext fun a => Fin.ext ?_)
  match a with
  | ⟨0, _⟩ => show win1_5.index t (0 : Fin 2) * 1 + 1 * (y 0).val = (y 0).val; rw [e0]; omega
  | ⟨1, _⟩ => show win1_5.index t (1 : Fin 2) * 192 + 1 * (y 1).val = (y 1).val; rw [e1]; omega

/-- Entry `(p, j)` of the output block at point `t` sits at `(2000 t + p, j)` of the output array. -/
theorem out_emb (t : Fin cfg1.N) (p : Fin 2000) (j : Fin 64) (n : Fin 100000) (hn : n.val = 2000 * t.val + p.val) :
    ((cfg1.win 6).blk t).view.emb (ix2 p j) = (ix2 n j : S100000x64.Idx) := by
  obtain ⟨-, -, -, -, -, -, -, -, -, -, -, -, e0, e1⟩ := idx_facts t
  refine funext fun a => Fin.ext ?_
  match a with
  | ⟨0, _⟩ => show win1_6.index t (0 : Fin 2) * 2000 + 1 * p.val = n.val; rw [e0, hn]; omega
  | ⟨1, _⟩ => show win1_6.index t (1 : Fin 2) * 64 + 1 * j.val = j.val; rw [e1]; omega

/-! ## The whole output array -/

/-- Node `n`'s new state at unit `j`, from the arrays as the region finds them. -/
def newState (c : Dev nD) (n : Fin 100000) (j : Fin 64) : EReal :=
  Cert.Spec.gruRow (fun k => inArr V c (ix2 n k)) (fun k => hArr V c (ix2 n k)) (wihArr V c) (whhArr V c)
    (fun g => bihArr V c (ix2 0 g)) (fun g => bhhArr V c (ix2 0 g)) j

/-- The array of all nodes' new states. -/
def newStates (c : Dev nD) : Vec Ideal S100000x64 .f32 := fun i => newState V c (i 0) (i 1)

/-- The row formula depends on its six operands only through their values. -/
theorem gruRow_congr {x x' : Fin 128 → EReal} {h h' : Fin 64 → EReal} {wih wih' : Cert.Spec.Arr2 192 128}
    {whh whh' : Cert.Spec.Arr2 192 64} {bih bih' bhh bhh' : Fin 192 → EReal} (ex : x = x') (eh : h = h')
    (ewi : wih = wih') (ewh : whh = whh') (ebi : bih = bih') (ebh : bhh = bhh') (j : Fin 64) :
    Cert.Spec.gruRow x h wih whh bih bhh j = Cert.Spec.gruRow x' h' wih' whh' bih' bhh' j := by
  subst ex eh ewi ewh ebi ebh; rfl

theorem hz : (![0, 0] : Fin 2 → Nat) = fun _ => 0 := funext fun a => by fin_cases a <;> rfl

/-- What point `t` writes back is block `t` of the array of new states. -/
theorem flushed_eq (c : Dev nD) (t : Fin cfg1.N) :
    (dat1 (F := Ideal) V c).flushed 6 t = ((cfg1.win 6).blk t).view.read (Elt Ideal) (newStates V c) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S2000x64) hz,
    View.ld_unit_zero (S := S192x128) hz, View.ld_unit_zero (S := S192x64) hz, View.ld_unit_zero (S := S1x192) hz]
  funext y
  obtain ⟨p, j, rfl⟩ : ∃ (p : Fin 2000) (j : Fin 64), y = ix2 p j := ⟨y 0, y 1, eq_ix2 y⟩
  have ht : t.val < 50 := lt_of_lt_of_eq t.isLt N_1
  obtain ⟨n, hn⟩ : ∃ n : Fin 100000, n.val = 2000 * t.val + p.val := ⟨⟨2000 * t.val + p.val, by omega⟩, rfl⟩
  show k1_pay1 (F := Ideal) (iblk1 V c 0 t) (iblk1 V c 1 t) (iblk1 V c 2 t) (iblk1 V c 3 t) (iblk1 V c 4 t)
      (iblk1 V c 5 t) (ix2 p j) = newStates V c (((cfg1.win 6).blk t).view.emb (ix2 p j))
  refine ((pay_apply _ _ _ _ _ _ p j).trans ?_).trans (congrArg (newStates V c) (out_emb t p j n hn)).symm
  exact gruRow_congr (funext fun k => in_rows V c t p k n hn) (funext fun k => h_rows V c t p k n hn)
    (wih_blk V c t) (whh_blk V c t) (funext fun g => congrFun (bih_blk V c t) (ix2 0 g))
    (funext fun g => congrFun (bhh_blk V c t) (ix2 0 g)) j

/-- An index of the output array is in point `t`'s block iff each coordinate is in the block's range on its axis. -/
theorem mem_blk (t : Fin cfg1.N) (i : S100000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v23).slice (win1_6.rect t)).set ↔ _
  rw [View.set_slice_whole, Rect.mem_set_unit]
  exact Iff.rfl

/-- Row `r` of the output array is in the block of point `r / 2000`, which writes its block back. -/
theorem cover (i : S100000x64.Idx) :
    ∃ t : Fin cfg1.N, (cfg1.win 6).flush t = true ∧ i ∈ ((cfg1.win 6).blk t).view.set := by
  have hi0 : (i 0).val < 100000 := idx2_lt0 i
  have hi1 : (i 1).val < 64 := idx2_lt1 i
  obtain ⟨t, ht⟩ : ∃ t : Fin cfg1.N, t.val = (i 0).val / 2000 :=
    ⟨⟨(i 0).val / 2000, by rw [show cfg1.N = 50 from N_1]; omega⟩, rfl⟩
  obtain ⟨-, -, -, -, -, -, -, -, -, -, -, -, e0, e1⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 64 ≤ (i 1).val ∧ (i 1).val < win1_6.index t (1 : Fin 2) * 64 + 64
    rw [e1]; omega

/-- After the last grid point the output array is the array of new states: every row is in some point's block. -/
theorem out_eq (c : Dev nD) : outArr V c = newStates V c :=
  (dat1 (F := Ideal) V c).arrAt_eq_of_cover 6 (newStates V c) (fun t _ => flushed_eq V c t) cover

/-- Entry (n, j) of the output is node n's new state at unit j. -/
theorem value (c : Dev nD) (n : Fin 100000) (j : Fin 64) :
    outArr V c (ix2 n j)
      = Cert.Spec.gruRow (fun k => inArr V c (ix2 n k)) (fun k => hArr V c (ix2 n k)) (wihArr V c) (whhArr V c)
          (fun g => bihArr V c (ix2 0 g)) (fun g => bhhArr V c (ix2 0 g)) j :=
  congrFun (out_eq V c) (ix2 n j)

end Cert.KernelIdeal.Region1

end
-- ==== Proof.RefStages.lean ====
/-
  The reference's stages read at an index: one edge's message from its pre-activation, the projected node
  table, and one node's new state from its summed messages.
-/
import proofs.«417138_j76501957477037_3_alg».proof.Proof.Gen.ReferenceIdeal.Run
import proofs.«417138_j76501957477037_3_alg».proof.Proof.Gen.ReferenceIdeal.Read
import proofs.«417138_j76501957477037_3_alg».proof.Proof.Spec
import proofs.«417138_j76501957477037_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.RefStages

open Idealize.ShloMosaic Idealize.ShloMosaic.TcCoe Idealize.ShloMosaic.ValueIdx Idealize.SL.Sem
open Cert.ReferenceIdeal Cert.ReferenceIdeal.Gen Cert.ReferenceIdeal.Read
open scoped BigOperators

variable (x0 : (⟨S100000x64, .f32⟩ : BufTy).Contents (Elt Ideal)) (x1 : (⟨S1600000x64, .f32⟩ : BufTy).Contents (Elt Ideal))
  (x2 x3 : (⟨S1600000, .i32⟩ : BufTy).Contents (Elt Ideal)) (x5 x6 : (⟨S128x64, .f32⟩ : BufTy).Contents (Elt Ideal))
  (x7 : (⟨S128x128, .f32⟩ : BufTy).Contents (Elt Ideal)) (x8 : (⟨S128, .f32⟩ : BufTy).Contents (Elt Ideal))
  (x9 : (⟨S192x128, .f32⟩ : BufTy).Contents (Elt Ideal)) (x10 : (⟨S192x64, .f32⟩ : BufTy).Contents (Elt Ideal))
  (x11 x12 : (⟨S192, .f32⟩ : BufTy).Contents (Elt Ideal))

/-- The f32 word of `1.0` denotes the extended real `1`. -/
theorem one32_eq : Ideal.ofBits .f32 0x3F800000#32 = 1 := IdealRules.sign_bit.ideal_onePat .f32

/-- The sigmoid spelled as a quotient, with the word of `1.0` for both ones, is the logistic function. -/
theorem sigmoid_eq (x : EReal) :
    Ideal.div (Ideal.ofBits .f32 0x3F800000#32) (Ideal.ofBits .f32 0x3F800000#32 + Ideal.exp (-x)) = Ideal.logistic x := by
  rw [one32_eq]; rfl

/-- The projected node table: entry (n, k) is node n's state against row k of the node weights. -/
theorem nf_at (n : Fin 100000) (k : Fin 128) :
    val_main_v3 (F := Ideal) x0 x5 (ix2 n k) = ∑ k' : Fin 64, x0 (ix2 n k') * x5 (ix2 k k') := by
  have el : ∀ k' : Fin 64, lidx_main_v3 (ix2 n k) k' = ix2 n k' := fun k' =>
    funext fun a => Fin.ext (by match a with | ⟨0, _⟩ => rfl | ⟨1, _⟩ => rfl)
  have er : ∀ k' : Fin 64, idx_main_v2 (ridx_main_v3 (ix2 n k) k') = ix2 k k' := fun k' =>
    funext fun a => Fin.ext (by match a with | ⟨0, _⟩ => rfl | ⟨1, _⟩ => rfl)
  rw [val_main_v3_apply]
  refine Finset.sum_congr rfl fun k' _ => ?_
  rw [val_main_v2_apply, el, er]

/-- One edge's message: the two gathered rows of the projected table (left as they are) plus the projected
    features make the pre-activation; then tanh, the second layer and its bias. -/
theorem msg_at (e : Fin 1600000) (j : Fin 128) :
    val_main_v25 (F := Ideal) x0 x1 x2 x3 x5 x6 x7 x8 (ix2 e j)
      = Cert.Spec.msgOfPre (fun k => (val_main_v10 (F := Ideal) x0 x2 x5 (ix2 e k) + val_main_v17 (F := Ideal) x0 x3 x5 (ix2 e k))
            + ∑ k' : Fin 64, x1 (ix2 e k') * x6 (ix2 k k')) x7 (fun j' => x8 (ix1 j')) j := by
  -- the second layer's operands: row e of the hidden activations, row j of the second weights
  have e22l : ∀ k : Fin 128, lidx_main_v22 (ix2 e j) k = ix2 e k := fun k =>
    funext fun a => Fin.ext (by match a with | ⟨0, _⟩ => rfl | ⟨1, _⟩ => rfl)
  have e22r : ∀ k : Fin 128, idx_main_v21 (ridx_main_v22 (ix2 e j) k) = ix2 j k := fun k =>
    funext fun a => Fin.ext (by match a with | ⟨0, _⟩ => rfl | ⟨1, _⟩ => rfl)
  -- the feature projection's operands: row e of the features, row k of the feature weights
  have e1l : ∀ (k : Fin 128) (k' : Fin 64), lidx_main_v1 (ix2 e k) k' = ix2 e k' := fun k k' =>
    funext fun a => Fin.ext (by match a with | ⟨0, _⟩ => rfl | ⟨1, _⟩ => rfl)
  have e1r : ∀ (k : Fin 128) (k' : Fin 64), idx_main_v0 (ridx_main_v1 (ix2 e k) k') = ix2 k k' := fun k k' =>
    funext fun a => Fin.ext (by match a with | ⟨0, _⟩ => rfl | ⟨1, _⟩ => rfl)
  -- the bias is broadcast along the rows
  have eb : idx_main_v23 (idx_main_v24 (ix2 e j)) = ix1 j :=
    funext fun a => Fin.ext (by match a with | ⟨0, _⟩ => rfl)
  rw [val_main_v25_apply, val_main_v22_apply, val_main_v24_apply, val_main_v23_apply, eb]
  simp only [val_main_v20_apply, val_main_v19_apply, val_main_v18_apply, val_main_v1_apply, val_main_v0_apply,
    val_main_v21_apply, e22l, e22r, e1l, e1r, Ideal.addf_def, Ideal.hostUnary_tanh_def]
  rfl

/-- The input-side gate pre-activations of node n: row n of the summed messages (left as it is) against row g of
    the input weights, plus the input bias. -/
theorem gi_at (n : Fin 100000) (g : Fin 192) :
    val_main_v45 (F := Ideal) x0 x1 x2 x3 x5 x6 x7 x8 x9 x11 (ix2 n g)
      = Cert.Spec.gateI (fun k => val_main_v40 (F := Ideal) x0 x1 x2 x3 x5 x6 x7 x8 (ix2 n k)) x9 (fun g' => x11 (ix1 g')) g := by
  have el : ∀ k : Fin 128, lidx_main_v42 (ix2 n g) k = ix2 n k := fun k =>
    funext fun a => Fin.ext (by match a with | ⟨0, _⟩ => rfl | ⟨1, _⟩ => rfl)
  have er : ∀ k : Fin 128, idx_main_v41 (ridx_main_v42 (ix2 n g) k) = ix2 g k := fun k =>
    funext fun a => Fin.ext (by match a with | ⟨0, _⟩ => rfl | ⟨1, _⟩ => rfl)
  have eb : idx_main_v43 (idx_main_v44 (ix2 n g)) = ix1 g :=
    funext fun a => Fin.ext (by match a with | ⟨0, _⟩ => rfl)
  rw [val_main_v45_apply, val_main_v42_apply, val_main_v44_apply, val_main_v43_apply, eb]
  simp only [val_main_v41_apply, el, er, Ideal.addf_def]
  rfl

/-- The state-side gate pre-activations of node n: row n of the state against row g of the state weights, plus
    the state bias. -/
theorem gh_at (n : Fin 100000) (g : Fin 192) :
    val_main_v50 (F := Ideal) x0 x10 x12 (ix2 n g)
      = Cert.Spec.gateH (fun k => x0 (ix2 n k)) x10 (fun g' => x12 (ix1 g')) g := by
  have el : ∀ k : Fin 64, lidx_main_v47 (ix2 n g) k = ix2 n k := fun k =>
    funext fun a => Fin.ext (by match a with | ⟨0, _⟩ => rfl | ⟨1, _⟩ => rfl)
  have er : ∀ k : Fin 64, idx_main_v46 (ridx_main_v47 (ix2 n g) k) = ix2 g k := fun k =>
    funext fun a => Fin.ext (by match a with | ⟨0, _⟩ => rfl | ⟨1, _⟩ => rfl)
  have eb : idx_main_v48 (idx_main_v49 (ix2 n g)) = ix1 g :=
    funext fun a => Fin.ext (by match a with | ⟨0, _⟩ => rfl)
  rw [val_main_v50_apply, val_main_v47_apply, val_main_v49_apply, val_main_v48_apply, eb]
  simp only [val_main_v46_apply, el, er, Ideal.addf_def]
  rfl

/-- The pointwise part of the update at any index: the six sliced gate pre-activations and the old state entry
    enter exactly as in the GRU cell. The sigmoid is spelled as a quotient with the word of `1.0`. -/
theorem cell_at (i : S100000x64.Idx) :
    val_main_v78 (F := Ideal) x0 x1 x2 x3 x5 x6 x7 x8 x9 x10 x11 x12 i
      = Cert.Spec.gruCell (val_main_v51 (F := Ideal) x0 x1 x2 x3 x5 x6 x7 x8 x9 x11 i) (val_main_v54 (F := Ideal) x0 x10 x12 i)
          (val_main_v52 (F := Ideal) x0 x1 x2 x3 x5 x6 x7 x8 x9 x11 i) (val_main_v55 (F := Ideal) x0 x10 x12 i)
          (val_main_v53 (F := Ideal) x0 x1 x2 x3 x5 x6 x7 x8 x9 x11 i) (val_main_v56 (F := Ideal) x0 x10 x12 i) (x0 i) := by
  rw [val_main_v78_apply, val_main_v76_apply, val_main_v77_apply, val_main_v75_apply, val_main_v73_apply, val_main_v72_apply,
    val_main_v71_apply, val_main_v70_apply, val_main_v68_apply, val_main_v66_apply, val_main_v65_apply, val_main_v64_apply,
    val_main_v63_apply, val_main_v61_apply, val_main_v59_apply, val_main_v58_apply, val_main_v57_apply,
    val_main_v74_apply, val_main_cst_11_apply, val_main_v69_apply, val_main_cst_10_apply, val_main_v67_apply, val_main_cst_9_apply,
    val_main_v62_apply, val_main_cst_8_apply, val_main_v60_apply, val_main_cst_7_apply]
  generalize val_main_v51 (F := Ideal) x0 x1 x2 x3 x5 x6 x7 x8 x9 x11 i = ir
  generalize val_main_v52 (F := Ideal) x0 x1 x2 x3 x5 x6 x7 x8 x9 x11 i = iz
  generalize val_main_v53 (F := Ideal) x0 x1 x2 x3 x5 x6 x7 x8 x9 x11 i = inn
  generalize val_main_v54 (F := Ideal) x0 x10 x12 i = hr
  generalize val_main_v55 (F := Ideal) x0 x10 x12 i = hz
  generalize val_main_v56 (F := Ideal) x0 x10 x12 i = hn
  generalize x0 i = h
  simp only [Ideal.ofBits_def, Ideal.addf_def, Ideal.subf_def, Ideal.mulf_def, Ideal.hostDivf_def, Ideal.hostNegf_def,
    Ideal.negf_def, Ideal.hostUnary_exp_def, Ideal.hostUnary_tanh_def, sigmoid_eq]
  rfl

/-- One node's new state, from row n of the summed messages (the second scatter's result, left as it is). -/
theorem gru_at (n : Fin 100000) (j : Fin 64) :
    val_main_v78 (F := Ideal) x0 x1 x2 x3 x5 x6 x7 x8 x9 x10 x11 x12 (ix2 n j)
      = Cert.Spec.gruRow (fun k => val_main_v40 (F := Ideal) x0 x1 x2 x3 x5 x6 x7 x8 (ix2 n k)) (fun k => x0 (ix2 n k)) x9 x10
          (fun g => x11 (ix1 g)) (fun g => x12 (ix1 g)) j := by
  -- the three column blocks of the 192 gate pre-activations: offsets 0, 64 and 128
  have s0 : idx_main_v51 (ix2 n j) = ix2 n (⟨j.val, by omega⟩ : Fin 192) :=
    funext fun a => Fin.ext (by match a with | ⟨0, _⟩ => rfl | ⟨1, _⟩ => rfl)
  have s1 : idx_main_v52 (ix2 n j) = ix2 n (⟨j.val + 64, by omega⟩ : Fin 192) :=
    funext fun a => Fin.ext (by match a with | ⟨0, _⟩ => rfl | ⟨1, _⟩ => exact Nat.add_comm 64 j.val)
  have s2 : idx_main_v53 (ix2 n j) = ix2 n (⟨j.val + 128, by omega⟩ : Fin 192) :=
    funext fun a => Fin.ext (by match a with | ⟨0, _⟩ => rfl | ⟨1, _⟩ => exact Nat.add_comm 128 j.val)
  have t0 : idx_main_v54 (ix2 n j) = ix2 n (⟨j.val, by omega⟩ : Fin 192) :=
    funext fun a => Fin.ext (by match a with | ⟨0, _⟩ => rfl | ⟨1, _⟩ => rfl)
  have t1 : idx_main_v55 (ix2 n j) = ix2 n (⟨j.val + 64, by omega⟩ : Fin 192) :=
    funext fun a => Fin.ext (by match a with | ⟨0, _⟩ => rfl | ⟨1, _⟩ => exact Nat.add_comm 64 j.val)
  have t2 : idx_main_v56 (ix2 n j) = ix2 n (⟨j.val + 128, by omega⟩ : Fin 192) :=
    funext fun a => Fin.ext (by match a with | ⟨0, _⟩ => rfl | ⟨1, _⟩ => exact Nat.add_comm 128 j.val)
  rw [cell_at, val_main_v51_apply, val_main_v52_apply, val_main_v53_apply, val_main_v54_apply, val_main_v55_apply,
    val_main_v56_apply, s0, s1, s2, t0, t1, t2, gi_at, gi_at, gi_at, gh_at, gh_at, gh_at]
  unfold Cert.Spec.gruRow
  rfl

end Cert.RefStages

end
-- ==== Proof.Region0.lean ====
/-
  The message kernel's output array: row e of the result is the message of edge e.
-/
import proofs.«417138_j76501957477037_3_alg».proof.Proof.Gen.KernelIdeal.Frame
import proofs.«417138_j76501957477037_3_alg».proof.Proof.Spec
import proofs.«417138_j76501957477037_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open scoped BigOperators

variable (V : (c : Dev nD) → (b : Ref sig .tc) → Buf (Elt Ideal) ((c : Thread nD τ).loc b))

/-- The region's arrays as it finds them, at their literal types. -/
abbrev efArr (c : Dev nD) : Vec Ideal S1600000x64 .f32 := V c (Pipeline.arrRef spec0 0)
abbrev xsArr (c : Dev nD) : Vec Ideal S1600000x64 .bf16 := V c (Pipeline.arrRef spec0 1)
abbrev wnArr (c : Dev nD) : Vec Ideal S128x64 .f32 := V c (Pipeline.arrRef spec0 2)
abbrev wfArr (c : Dev nD) : Vec Ideal S128x64 .f32 := V c (Pipeline.arrRef spec0 3)
abbrev w2Arr (c : Dev nD) : Vec Ideal S128x128 .f32 := V c (Pipeline.arrRef spec0 4)
abbrev b2Arr (c : Dev nD) : Vec Ideal S1x128 .f32 := V c (Pipeline.arrRef spec0 5)
/-- The output array after the last grid point. -/
abbrev outArr (c : Dev nD) : Vec Ideal S1600000x128 .f32 := (dat0 (F := Ideal) V c).arrAt 6 cfg0.N

/-- A product into the zero accumulator against a transposed [128, 64] weight block, at (p, k): the row of the
    left operand against row k of the weights. -/
theorem proj_apply {φ : FTy} (x : FVec Ideal S6400x64 φ) (w : FVec Ideal S128x64 .bf16) (p : Fin 6400) (k : Fin 128) :
    matmul dot_S6400x64_S64x128_S6400x128_1_0_0_1_n_n none x
        (transpose S64x128 [1, 0] w transposes_S128x64_p1_0_S64x128) (constant (F := Ideal) S6400x128 .f32 0x00000000#32) (ix2 p k)
      = ∑ k' : Fin 64, x (ix2 p k') * w (ix2 k k') :=
  (Cert.LibRowOps.matmul_plain_apply _ rfl none x _ p k).trans
    (Finset.sum_congr rfl fun k' _ => congrArg (x (ix2 p k') * ·) (transpose_ix2_apply w _ k' k))

/-- The body's arithmetic at (p, j): the message of the edge whose endpoint-state sum and features are row p of
    the two row blocks. -/
theorem pay_apply (v0 : Vec Ideal S6400x64 .f32) (v2 : Vec Ideal S6400x64 .bf16) (v4 v6 : Vec Ideal S128x64 .f32)
    (v15 : Vec Ideal S128x128 .f32) (v19 : Vec Ideal S1x128 .f32) (p : Fin 6400) (j : Fin 128) :
    k0_pay1 v0 v2 v4 v6 v15 v19 (ix2 p j)
      = Cert.Spec.msgRow (fun k' => v2 (ix2 p k')) (fun k' => v0 (ix2 p k')) v4 v6 v15 (fun j' => v19 (ix2 0 j')) j := by
  unfold k0_pay1 Cert.Spec.msgRow Cert.Spec.msgOfPre
  dsimp only
  refine congrArg₂ (· + ·) ?_ ?_
  · refine (Cert.LibRowOps.matmul_plain_apply _ rfl none _ _ p j).trans (Finset.sum_congr rfl fun k _ => ?_)
    refine congrArg₂ (· * ·) (congrArg Ideal.tanh ?_) (transpose_ix2_apply _ _ k j)
    exact congrArg₂ (· + ·)
      ((proj_apply _ _ p k).trans (Finset.sum_congr rfl fun k' _ =>
        congrArg (· * _) (congrFun (shapeCast_self v2 shapeCasts_S6400x64_S6400x64) (ix2 p k'))))
      (proj_apply _ _ p k)
  · exact (broadcastTo_1b_ab_apply _ _ p j).trans (congrFun (shapeCast_self v19 shapeCasts_S1x128_S1x128) (ix2 0 j))

/-- The block indices of the seven windows at grid point t: the two row-blocked inputs and the output sit at row
    block t, the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the feature block at point t is row 6400·t + p of the feature array. -/
theorem ef_blk (c : Dev nD) (t : Fin cfg0.N) (p : Fin 6400) (k : Fin 64) (e : Fin 1600000)
    (he : e.val = 6400 * t.val + p.val) :
    (iblk0 V c 0 t : Vec Ideal S6400x64 .f32) (ix2 p k) = efArr V c (ix2 e k) := by
  unfold iblk0
  show V c (Pipeline.arrRef spec0 0) (((cfg0.win 0).blk t).view.emb (ix2 p k)) = V c (Pipeline.arrRef spec0 0) (ix2 e k)
  refine congrArg _ (funext fun a => Fin.ext ?_)
  match a with
  | ⟨0, _⟩ => show win0_0.index t (0 : Fin 2) * 6400 + 1 * p.val = e.val; rw [(idx_facts t).1, he]; omega
  | ⟨1, _⟩ => show win0_0.index t (1 : Fin 2) * 64 + 1 * k.val = k.val; rw [(idx_facts t).2.1]; omega

/-- Row p of the endpoint-state block at point t is row 6400·t + p of the endpoint-state array. -/
theorem xs_blk (c : Dev nD) (t : Fin cfg0.N) (p : Fin 6400) (k : Fin 64) (e : Fin 1600000)
    (he : e.val = 6400 * t.val + p.val) :
    (iblk0 V c 1 t : Vec Ideal S6400x64 .bf16) (ix2 p k) = xsArr V c (ix2 e k) := by
  unfold iblk0
  show V c (Pipeline.arrRef spec0 1) (((cfg0.win 1).blk t).view.emb (ix2 p k)) = V c (Pipeline.arrRef spec0 1) (ix2 e k)
  refine congrArg _ (funext fun a => Fin.ext ?_)
  match a with
  | ⟨0, _⟩ => show win0_1.index t (0 : Fin 2) * 6400 + 1 * p.val = e.val; rw [(idx_facts t).2.2.1, he]; omega
  | ⟨1, _⟩ => show win0_1.index t (1 : Fin 2) * 64 + 1 * k.val = k.val; rw [(idx_facts t).2.2.2.1]; omega

/-- The node-weight block at every point is the whole node-weight array. -/
theorem wn_blk (c : Dev nD) (t : Fin cfg0.N) : (iblk0 V c 2 t : Vec Ideal S128x64 .f32) = wnArr V c := by
  funext y
  unfold iblk0
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; rw [(idx_facts t).2.2.2.2.1]; omega
  | ⟨1, _⟩ => show win0_2.index t (1 : Fin 2) * 64 + 1 * (y 1).val = (y 1).val; rw [(idx_facts t).2.2.2.2.2.1]; omega

/-- The feature-weight block at every point is the whole feature-weight array. -/
theorem wf_blk (c : Dev nD) (t : Fin cfg0.N) : (iblk0 V c 3 t : Vec Ideal S128x64 .f32) = wfArr V c := by
  funext y
  unfold iblk0
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; rw [(idx_facts t).2.2.2.2.2.2.1]; omega
  | ⟨1, _⟩ => show win0_3.index t (1 : Fin 2) * 64 + 1 * (y 1).val = (y 1).val; rw [(idx_facts t).2.2.2.2.2.2.2.1]; omega

/-- The second-layer weight block at every point is the whole second-layer weight array. -/
theorem w2_blk (c : Dev nD) (t : Fin cfg0.N) : (iblk0 V c 4 t : Vec Ideal S128x128 .f32) = w2Arr V c := by
  funext y
  unfold iblk0
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 128 + 1 * (y 0).val = (y 0).val; rw [(idx_facts t).2.2.2.2.2.2.2.2.1]; omega
  | ⟨1, _⟩ => show win0_4.index t (1 : Fin 2) * 128 + 1 * (y 1).val = (y 1).val; rw [(idx_facts t).2.2.2.2.2.2.2.2.2.1]; omega

/-- The bias block at every point is the whole bias row. -/
theorem b2_blk (c : Dev nD) (t : Fin cfg0.N) : (iblk0 V c 5 t : Vec Ideal S1x128 .f32) = b2Arr V c := by
  funext y
  unfold iblk0
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; rw [(idx_facts t).2.2.2.2.2.2.2.2.2.2.1]; omega
  | ⟨1, _⟩ => show win0_5.index t (1 : Fin 2) * 128 + 1 * (y 1).val = (y 1).val; rw [(idx_facts t).2.2.2.2.2.2.2.2.2.2.2.1]; omega

/-- The message of edge e at unit j, from the region's input arrays. -/
def msgAt (c : Dev nD) (e : Fin 1600000) (j : Fin 128) : EReal :=
  Cert.Spec.msgRow (fun k' => xsArr V c (ix2 e k')) (fun k' => efArr V c (ix2 e k')) (wnArr V c) (wfArr V c) (w2Arr V c)
    (fun j' => b2Arr V c (ix2 0 j')) j

/-- The whole output array as one function of the input arrays. -/
def msgArr (c : Dev nD) : Vec Ideal S1600000x128 .f32 := fun i => msgAt V c (i 0) (i 1)

theorem hz : (![0, 0] : Fin 2 → Nat) = fun _ => 0 := funext fun a => by fin_cases a <;> rfl

/-- What the body leaves in the output's buffer at point t, at (p, j): the message of edge 6400·t + p. -/
theorem out_apply (c : Dev nD) (t : Fin cfg0.N) (p : Fin 6400) (j : Fin 128) (e : Fin 1600000)
    (he : e.val = 6400 * t.val + p.val) :
    out0_6 (iblk0 V c 0 t) (iblk0 V c 1 t) (iblk0 V c 2 t) (iblk0 V c 3 t) (iblk0 V c 4 t) (iblk0 V c 5 t) (ix2 p j)
      = msgAt V c e j := by
  unfold out0_6
  rw [View.canon_unit_zero hz]
  simp only [View.ld_unit_zero (S := S6400x64) hz, View.ld_unit_zero (S := S128x64) hz,
    View.ld_unit_zero (S := S128x128) hz, View.ld_unit_zero (S := S1x128) hz]
  refine (pay_apply _ _ _ _ _ _ p j).trans ?_
  unfold msgAt
  have h1 : (fun k' => (iblk0 V c 1 t : Vec Ideal S6400x64 .bf16) (ix2 p k')) = fun k' => xsArr V c (ix2 e k') :=
    funext fun k' => xs_blk V c t p k' e he
  have h0 : (fun k' => (iblk0 V c 0 t : Vec Ideal S6400x64 .f32) (ix2 p k')) = fun k' => efArr V c (ix2 e k') :=
    funext fun k' => ef_blk V c t p k' e he
  have h5 : (fun j' => (iblk0 V c 5 t : Vec Ideal S1x128 .f32) (ix2 0 j')) = fun j' => b2Arr V c (ix2 0 j') :=
    funext fun j' => congrFun (b2_blk V c t) (ix2 0 j')
  exact (congrArg (fun f => Cert.Spec.msgRow f _ _ _ _ _ j) h1).trans
    ((congrArg (fun f => Cert.Spec.msgRow _ f _ _ _ _ j) h0).trans
    ((congrArg (fun f => Cert.Spec.msgRow _ _ f _ _ _ j) (wn_blk V c t)).trans
    ((congrArg (fun f => Cert.Spec.msgRow _ _ _ f _ _ j) (wf_blk V c t)).trans
    ((congrArg (fun f => Cert.Spec.msgRow _ _ _ _ f _ j) (w2_blk V c t)).trans
    (congrArg (fun f => Cert.Spec.msgRow _ _ _ _ _ f j) h5)))))

/-- What point t writes back is block t of the message array. -/
theorem flushed_eq (c : Dev nD) (t : Fin cfg0.N) :
    (dat0 (F := Ideal) V c).flushed 6 t = ((cfg0.win 6).blk t).view.read (Elt Ideal) (msgArr V c) := by
  show (cfg0.win 6).cut (grid0.coords t) ((dat0 (F := Ideal) V c).after 6 t) = _
  rw [after0_6]
  funext y
  have hy0 : (y 0).val < 6400 := (y 0).isLt
  have hy1 : (y 1).val < 128 := (y 1).isLt
  have ht : t.val < 250 := lt_of_lt_of_eq t.isLt N_0
  have hx : (cfg0.win 6).xinj (grid0.coords t) y = ix2 (⟨(y 0).val, hy0⟩ : Fin 6400) (⟨(y 1).val, hy1⟩ : Fin 128) :=
    funext fun a => match a with | ⟨0, _⟩ => rfl | ⟨1, _⟩ => rfl
  have e0 : win0_6.index t (0 : Fin 2) = t.val := (idx_facts t).2.2.2.2.2.2.2.2.2.2.2.2.1
  have e1 : win0_6.index t (1 : Fin 2) = 0 := (idx_facts t).2.2.2.2.2.2.2.2.2.2.2.2.2
  have hi : ((cfg0.win 6).blk t).view.emb y
      = ix2 (⟨6400 * t.val + (y 0).val, by omega⟩ : Fin 1600000) (⟨(y 1).val, hy1⟩ : Fin 128) :=
    funext fun a => Fin.ext (by
      match a with
      | ⟨0, _⟩ => show win0_6.index t (0 : Fin 2) * 6400 + 1 * (y 0).val = 6400 * t.val + (y 0).val; rw [e0]; omega
      | ⟨1, _⟩ => show win0_6.index t (1 : Fin 2) * 128 + 1 * (y 1).val = (y 1).val; rw [e1]; omega)
  show out0_6 (iblk0 V c 0 t) (iblk0 V c 1 t) (iblk0 V c 2 t) (iblk0 V c 3 t) (iblk0 V c 4 t) (iblk0 V c 5 t)
      ((cfg0.win 6).xinj (grid0.coords t) y) = msgArr V c (((cfg0.win 6).blk t).view.emb y)
  rw [hx, hi]
  exact out_apply V c t _ _ _ rfl

/-- An index of the output array is in point t's block iff each coordinate is in the block's range on its axis. -/
theorem mem_blk (t : Fin cfg0.N) (i : S1600000x128.Idx) :
    i ∈ ((cfg0.win 6).blk t).view.set
      ↔ ∀ a : Fin 2, win0_6.index t a * S6400x128.size a ≤ (i a).val ∧ (i a).val < win0_6.index t a * S6400x128.size a + S6400x128.size a := by
  show i ∈ ((View.whole main_v5).slice (win0_6.rect t)).set ↔ _
  rw [View.set_slice_whole, Rect.mem_set_unit]
  exact Iff.rfl

/-- Row r of the output array is in the block of point r / 6400. -/
theorem cover (i : S1600000x128.Idx) :
    ∃ t : Fin cfg0.N, (cfg0.win 6).flush t = true ∧ i ∈ ((cfg0.win 6).blk t).view.set := by
  have h0 : (i 0).val < 1600000 := (i 0).isLt
  have h1 : (i 1).val < 128 := (i 1).isLt
  have ht : (i 0).val / 6400 < cfg0.N := lt_of_lt_of_eq (by omega) N_0.symm
  refine ⟨⟨(i 0).val / 6400, ht⟩, flush0_6 _, ?_⟩
  rw [mem_blk]
  have e0 : win0_6.index ⟨(i 0).val / 6400, ht⟩ (0 : Fin 2) = (i 0).val / 6400 := (idx_facts ⟨(i 0).val / 6400, ht⟩).2.2.2.2.2.2.2.2.2.2.2.2.1
  have e1 : win0_6.index ⟨(i 0).val / 6400, ht⟩ (1 : Fin 2) = 0 := (idx_facts ⟨(i 0).val / 6400, ht⟩).2.2.2.2.2.2.2.2.2.2.2.2.2
  intro a
  match a with
  | ⟨0, _⟩ =>
    show win0_6.index ⟨(i 0).val / 6400, ht⟩ (0 : Fin 2) * 6400 ≤ (i 0).val
      ∧ (i 0).val < win0_6.index ⟨(i 0).val / 6400, ht⟩ (0 : Fin 2) * 6400 + 6400
    rw [e0]; omega
  | ⟨1, _⟩ =>
    show win0_6.index ⟨(i 0).val / 6400, ht⟩ (1 : Fin 2) * 128 ≤ (i 1).val
      ∧ (i 1).val < win0_6.index ⟨(i 0).val / 6400, ht⟩ (1 : Fin 2) * 128 + 128
    rw [e1]; omega

/-- The output array after the last grid point is the message array. -/
theorem final (c : Dev nD) : outArr V c = msgArr V c :=
  (dat0 (F := Ideal) V c).arrAt_eq_of_cover 6 (msgArr V c) (fun t _ => flushed_eq V c t) cover

/-- Entry (e, j) of the output is the message of edge e at unit j. -/
theorem value (c : Dev nD) (e : Fin 1600000) (j : Fin 128) :
    outArr V c (ix2 e j)
      = Cert.Spec.msgRow (fun k' => xsArr V c (ix2 e k')) (fun k' => efArr V c (ix2 e k')) (wnArr V c) (wfArr V c) (w2Arr V c)
          (fun j' => b2Arr V c (ix2 0 j')) j := by
  rw [final]
  rfl

end Cert.KernelIdeal.Region0

end
-- ==== Proof.LibGatherRows.lean ====
/-
  ROW GATHER READ AT AN INDEX. A `stablehlo.gather` of whole rows of a rank-2 table `[N, C]` at an `[n, 1]` column of
  start indices: operand axis 0 is collapsed and start-indexed, operand axis 1 is the one offset axis (the slice is
  the whole row). Read at result position `(p, q)` it is the table's entry `(i, q)`, where `i` is the start index
  `idx[p, 0]` read as a signed integer and clamped into `[0, N − 1]`; when that start index is already a row number
  the clamp does nothing. The statements hold for every dimension record with these five lists, at any extents.
-/
import Idealize.ShloMosaic.PureOps.ShapeOps
import Idealize.ShloMosaic.Lib.ValueIdx

namespace Cert.LibGatherRows

open Idealize.ShloMosaic
open Idealize.ShloMosaic.ValueIdx

/-- THE ROW GATHER AT `(p, q)`. With offset axes `[1]`, collapsed axes `[0]`, no batching axes, start index map `[0]`
    and the index vector on axis 1 of the `[n, 1]` start indices, the operand index of result position `(p, q)` is:
    on axis 0 the start index `idx[p, 0]`, read signed and clamped into `[0, N − 1]` (the slice has size one there, the
    axis being collapsed; batch and offset coordinates are zero); on axis 1 the result's own coordinate `q` (the axis is
    not start-indexed, so its start is zero, and it is the operand's one kept axis, read by the result's offset axis 1). -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (p : Fin n) (q : Fin C) :
    Host.gather d x idx (ix2 p q) = x (ix2 ⟨min (idx (ix2 p 0)).toInt.toNat (N - 1), by omega⟩ q) := by
  obtain ⟨od, cd, ob, sb, sm, iv, ss, wf⟩ := d
  simp only at hoff hcoll hob hsim hivd
  subst hoff hcoll hob hsim hivd
  unfold Host.gather
  congr 1
  funext a
  refine Fin.ext ?_
  match a with
  | ⟨0, _⟩ =>
    -- axis 0: collapsed (slice size one), start-indexed, neither batching nor kept
    have hsl : ss 0 = 1 := wf.2.2.2.2.2.2.2.2.2.2.2.1 0 (List.mem_singleton.mpr rfl)
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx (GatherDims.siIdx _ _ _)).toInt.toNat (N - ss 0) = min (idx (ix2 p 0)).toInt.toNat (N - 1)
    rw [hsl]
    refine congrArg (fun z => min (idx z).toInt.toNat (N - 1)) ?_
    -- the start-indices index: the result's batch coordinate p on axis 0, component 0 on the index vector's axis 1
    funext b
    refine Fin.ext ?_
    match b with
    | ⟨0, _⟩ => rfl
    | ⟨1, _⟩ => rfl
  | ⟨1, _⟩ =>
    -- axis 1: not start-indexed (start zero), not batching, the operand's one kept axis, read by offset axis 1
    have h1 : (1 : Fin 2) ∉ ([0] : List (Fin 2)) := by decide
    show GatherDims.start _ _ idx 1 + GatherDims.batchCoord _ _ 1 + GatherDims.offCoord _ _ 1 = _
    rw [GatherDims.batchCoord_eq_zero _ _ _ List.not_mem_nil]
    unfold GatherDims.start
    rw [dif_neg h1]
    unfold GatherDims.offCoord
    rw [dif_pos ((GatherDims.mem_sKept _ _).mpr ⟨h1, List.not_mem_nil⟩)]
    show 0 + 0 + _ = q.val
    simp only [Nat.zero_add]
    rfl

/-- THE ROW GATHER AT AN IN-RANGE START INDEX. If the start index `idx[p, 0]`, read signed, is a row number `r` of the
    table, the clamp into `[0, N − 1]` leaves it alone and result position `(p, q)` reads the table's entry `(r, q)`. -/
theorem gather_rows_inrange {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![n, 1]⟩ w) (p : Fin n) (q : Fin C) (r : Fin N)
    (hr : (idx (ix2 p 0)).toInt = (r.val : Int)) :
    Host.gather d x idx (ix2 p q) = x (ix2 r q) := by
  have hmin : min (idx (ix2 p 0)).toInt.toNat (N - 1) = r.val := by
    have := r.isLt
    omega
  rw [gather_rows_apply d hoff hcoll hob hsim hivd hN x idx p q]
  exact congrArg (fun z => x (ix2 z q)) (Fin.ext hmin)

end Cert.LibGatherRows
-- ==== Proof.TakeRows.lean ====
/-
  THE ROW LOOKUPS OF THE NODE TABLE, READ AT AN INDEX, WHEN THE INDEX IS IN RANGE. Both programs look up row `v` of a
  table of 100000 rows for an index word `v`: first the word is wrapped (`v + 100000` if `v` reads negative, else `v`),
  then the row gather clamps the wrapped start index into `[0, 99999]`; the kernel's side also tests the wrapped word
  against `[0, 99999]` and puts a fill word where the test fails. If `v` reads, signed, as a row number `r < 100000`:
  `v` is not negative, so the wrap is `v` itself; the test `0 ≤ v ∧ v ≤ 99999` is 1; the clamp leaves `r` alone; so each
  lookup at `(e, k)` is the table's entry `(r, k)`, and the fill word is never read.
-/
import proofs.«417138_j76501957477037_3_alg».proof.Proof.HostFns
import proofs.«417138_j76501957477037_3_alg».proof.Proof.LibGatherRows
import proofs.«417138_j76501957477037_3_alg».proof.Proof.Gen.ReferenceIdeal.Read
import Idealize.ShloMosaic.Lib.StableHlo.Predicate
import Idealize.ShloMosaic.Lib.Pipeline.Value
import Idealize.ShloMosaic.Lib.Affine
import Idealize.ShloMosaic.Lib.ValueIdx
import Idealize.ShloMosaic.PureOps.Reduce
import Idealize.ShloMosaic.PureOps.Ideal

noncomputable section

namespace Cert.TakeRows

open Idealize.ShloMosaic
open Idealize.ShloMosaic.ValueIdx
open Cert.KernelIdeal

/-! ## Words -/

/-- A word that reads, signed, as a natural number is not negative: the wrap `v < 0 ? v + 100000 : v` is `v`. -/
theorem wrap_inrange (v : BitVec 32) (r : Nat) (hr : v.toInt = (r : Int)) :
    Scalar.select (IntOp.cmpi .slt v 0#32) (IntOp.addi v 100000#32) v = v := by
  have h0 : (0#32 : BitVec 32).toInt = 0 := by decide
  have hb : IntOp.cmpi .slt v 0#32 = 0#1 := eq_zero_of_ne_one (by rw [IntOp.cmpi_slt]; omega)
  rw [hb, select_zero]

/-- A word that reads, signed, as a row number below 100000 passes the test `0 ≤ v ∧ v ≤ 99999`. -/
theorem inrange_bits (v : BitVec 32) (r : Nat) (hr : v.toInt = (r : Int)) (hlt : r < 100000) :
    IntOp.andi (IntOp.cmpi .sge v 0#32) (IntOp.cmpi .sle v 99999#32) = 1#1 := by
  have h0 : (0#32 : BitVec 32).toInt = 0 := by decide
  have h1 : (99999#32 : BitVec 32).toInt = 99999 := by decide
  rw [IntOp.andi_eq_one, IntOp.cmpi_sge, IntOp.cmpi_sle]
  constructor <;> omega

/-! ## A conjunction over a fiber of ones is one -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from the initial value 1 is 1 at `j` when the operand is 1 at every index that reduces into
    `j`. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ fun i hi => hx i ?_
  simpa using (List.mem_filter.1 hi).2

/-! ## Broadcasts read at an index -/

/-- A vector laid along axis 0 of an `[n × m]` rectangle reads, at `(p, q)`, the vector at `p`. -/
theorem bcast_axis0 {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) :=
  broadcastInDim_apply _ h v (ix2 p q) (ix1 p) fun a => match a with
    | ⟨0, _⟩ => by
      have hp := p.isLt
      show p.val = if n = 1 then 0 else p.val
      split <;> omega

/-! ## The kernel's side -/

/-- The wrapped column at `(e, 0)` is the wrap of the index word at `e`. -/
theorem wrapIdx_apply (a : IVec S1600000 32) (e : Fin 1600000) :
    HostGlue.wrapIdx a (ix2 e 0)
      = Scalar.select (IntOp.cmpi .slt (a (ix1 e)) 0#32) (IntOp.addi (a (ix1 e)) 100000#32) (a (ix1 e)) := by
  unfold HostGlue.wrapIdx
  exact bcast_axis0 _ _ e 0

/-- The in-table bit at `e` is 1 when the start index at `(e, 0)` reads as a row number below 100000: the reduction runs
    over the one index `(e, 0)`. -/
theorem inTable_one (s : IVec S1600000x1 32) (e : Fin 1600000) (r : Nat) (hr : (s (ix2 e 0)).toInt = (r : Int))
    (hlt : r < 100000) : HostGlue.inTable s (ix1 e) = 1#1 := by
  unfold HostGlue.inTable
  refine reduce_andi_one _ _ _ _ _ rfl fun i hi => ?_
  have h0 : (i 0).val = e.val := by
    have := Shape.ReducesTo.drop_apply_val_of_eq Facts₀.reducesTo_S1600000x1_S1600000_d1 i 0 0
    rw [hi] at this
    exact this.symm
  have hi' : i = ix2 e 0 := by
    funext b
    match b with
    | ⟨0, _⟩ => exact Fin.ext h0
    | ⟨1, _⟩ => exact Subsingleton.elim (α := Fin 1) _ _
  rw [hi']
  exact inrange_bits _ r hr hlt

/-- THE KERNEL'S LOOKUP AT `(e, k)`: row `r` of the table when the index word at `e` reads as the row number `r`. -/
theorem takeRows_apply (x : FVec Ideal S100000x64 .f32) (a : IVec S1600000 32) (e : Fin 1600000) (k : Fin 64)
    (r : Fin 100000) (hr : (a (ix1 e)).toInt = (r.val : Int)) : HostGlue.takeRows x a (ix2 e k) = x (ix2 r k) := by
  have hw : HostGlue.wrapIdx a (ix2 e 0) = a (ix1 e) := (wrapIdx_apply a e).trans (wrap_inrange _ r.val hr)
  have hin : HostGlue.inTable (HostGlue.wrapIdx a) (ix1 e) = 1#1 :=
    inTable_one _ e r.val (by rw [hw]; exact hr) r.isLt
  unfold HostGlue.takeRows
  rw [select_apply, bcast_axis0, hin, select_one]
  exact Cert.LibGatherRows.gather_rows_inrange _ rfl rfl rfl rfl rfl (by omega) x _ e k r (by rw [hw]; exact hr)

/-! ## The reference's side -/

/-- The reference's wrapped source column at `(e, 0)` is the index word at `e` when that word reads as a natural
    number. -/
theorem refWrap_src (x2 : (⟨Cert.ReferenceIdeal.S1600000, .i32⟩ : BufTy).Contents (Elt Ideal)) (e : Fin 1600000) (r : Nat)
    (hr : (x2 (ix1 e)).toInt = (r : Int)) : Cert.ReferenceIdeal.Read.val_main_v9 (F := Ideal) x2 (ix2 e 0) = x2 (ix1 e) := by
  have hi : Cert.ReferenceIdeal.Read.idx_main_v9 (ix2 e 0) = ix1 e := by
    funext b; match b with | ⟨0, _⟩ => rfl
  rw [Cert.ReferenceIdeal.Read.val_main_v9_apply, hi, Cert.ReferenceIdeal.Read.val_main_v8_apply,
    Cert.ReferenceIdeal.Read.val_main_v5_apply, Cert.ReferenceIdeal.Read.val_main_v7_apply,
    Cert.ReferenceIdeal.Read.val_main_v4_apply, Cert.ReferenceIdeal.Read.val_main_v6_apply,
    Cert.ReferenceIdeal.Read.val_main_c_apply, Cert.ReferenceIdeal.Read.val_main_c_0_apply]
  exact wrap_inrange _ r hr

/-- The same for the destination column. -/
theorem refWrap_dst (x3 : (⟨Cert.ReferenceIdeal.S1600000, .i32⟩ : BufTy).Contents (Elt Ideal)) (e : Fin 1600000) (r : Nat)
    (hr : (x3 (ix1 e)).toInt = (r : Int)) : Cert.ReferenceIdeal.Read.val_main_v16 (F := Ideal) x3 (ix2 e 0) = x3 (ix1 e) := by
  have hi : Cert.ReferenceIdeal.Read.idx_main_v16 (ix2 e 0) = ix1 e := by
    funext b; match b with | ⟨0, _⟩ => rfl
  rw [Cert.ReferenceIdeal.Read.val_main_v16_apply, hi, Cert.ReferenceIdeal.Read.val_main_v15_apply,
    Cert.ReferenceIdeal.Read.val_main_v12_apply, Cert.ReferenceIdeal.Read.val_main_v14_apply,
    Cert.ReferenceIdeal.Read.val_main_v11_apply, Cert.ReferenceIdeal.Read.val_main_v13_apply,
    Cert.ReferenceIdeal.Read.val_main_c_1_apply, Cert.ReferenceIdeal.Read.val_main_c_2_apply]
  exact wrap_inrange _ r hr

/-- THE REFERENCE'S SOURCE LOOKUP AT `(e, k)`: row `r` of the projected table when the source index word at `e` reads as
    the row number `r`. -/
theorem refTake_src (x0 : (⟨Cert.ReferenceIdeal.S100000x64, .f32⟩ : BufTy).Contents (Elt Ideal))
    (x2 : (⟨Cert.ReferenceIdeal.S1600000, .i32⟩ : BufTy).Contents (Elt Ideal))
    (x5 : (⟨Cert.ReferenceIdeal.S128x64, .f32⟩ : BufTy).Contents (Elt Ideal)) (e : Fin 1600000) (k : Fin 128)
    (r : Fin 100000) (hr : (x2 (ix1 e)).toInt = (r.val : Int)) :
    Cert.ReferenceIdeal.Read.val_main_v10 (F := Ideal) x0 x2 x5 (ix2 e k)
      = Cert.ReferenceIdeal.Read.val_main_v3 (F := Ideal) x0 x5 (ix2 r k) := by
  unfold Cert.ReferenceIdeal.Read.val_main_v10
  exact Cert.LibGatherRows.gather_rows_inrange _ rfl rfl rfl rfl rfl (by omega) _ _ e k r
    (by rw [refWrap_src x2 e r.val hr]; exact hr)

/-- THE REFERENCE'S DESTINATION LOOKUP AT `(e, k)`, likewise. -/
theorem refTake_dst (x0 : (⟨Cert.ReferenceIdeal.S100000x64, .f32⟩ : BufTy).Contents (Elt Ideal))
    (x3 : (⟨Cert.ReferenceIdeal.S1600000, .i32⟩ : BufTy).Contents (Elt Ideal))
    (x5 : (⟨Cert.ReferenceIdeal.S128x64, .f32⟩ : BufTy).Contents (Elt Ideal)) (e : Fin 1600000) (k : Fin 128)
    (r : Fin 100000) (hr : (x3 (ix1 e)).toInt = (r.val : Int)) :
    Cert.ReferenceIdeal.Read.val_main_v17 (F := Ideal) x0 x3 x5 (ix2 e k)
      = Cert.ReferenceIdeal.Read.val_main_v3 (F := Ideal) x0 x5 (ix2 r k) := by
  unfold Cert.ReferenceIdeal.Read.val_main_v17
  exact Cert.LibGatherRows.gather_rows_inrange _ rfl rfl rfl rfl rfl (by omega) _ _ e k r
    (by rw [refWrap_dst x3 e r.val hr]; exact hr)

end Cert.TakeRows

end
-- ==== Proof.PreFacts.lean ====
/-
  WHAT THE PRINTED PRECONDITION SAYS, AT THE IDEAL INSTANCE. The precondition is the conjunction, bit by bit, of one
  "every entry satisfies …" test per input: for each float input `|x| < +∞` at every entry, and for each of the two
  index vectors `0 ≤ idx` and `idx < 100000` at every entry, each test a reduction by `and` over all axes of the
  array of entrywise comparison bits. If the conjunction is the bit 1 then every conjunct is, every comparison bit of
  each test is 1, and each comparison read at an entry is the fact it tests: at the ideal instance a float is an
  extended real, `|x| = max x (−x)`, the pattern `0x7F800000` denotes `+∞`, and `max x (−x) < +∞` holds exactly
  when `x` is a real number; a signed comparison of words compares their signed readings. Only four facts are stated:
  the table `a0` and the weights `a5` hold real numbers, and both index vectors lie in `[0, 100000)`.
-/
import proofs.«417138_j76501957477037_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic
open Idealize.ShloMosaic.ValueIdx
open Cert.Pre_finite_inputs

/-- The scalar shape has one index. -/
local instance : Subsingleton S_.Idx := ⟨fun a b => funext fun d => d.elim0⟩

/-- A conjunction of two bit vectors read at an index is the conjunction of the bits there. -/
theorem andi_apply {s : Shape} {w : Nat} (x y : IVec s w) (i : s.Idx) : andi x y i = IntOp.andi (x i) (y i) := rfl

/-- The pattern `0x7F800000` denotes `+∞`. -/
theorem inf_bits : Ideal.ofBits .f32 0x7F800000#32 = (⊤ : EReal) := by
  simp [Ideal.ofBits, Ideal.ieee]

/-- `max x (−x) < +∞` for an extended real `x` says `x` is a real number: at `−∞` and at `+∞` the maximum is `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- ONE FLOAT TEST. If the reduction by `and` over all axes of the bits `|a| < +∞` is 1, every entry of `a` is a real
    number. -/
theorem real_of_all {s : Shape} {axes : List (Fin s.rank)} (hb : S_.BroadcastsInDim s (![] : Fin 0 → Fin s.rank))
    (hr : s.ReducesTo axes S_) (hu : 0 < S_.numel) (a : FVec Ideal s .f32)
    (h : Host.reduce IntOp.andi (cmpf .olt (Host.absf a) (broadcastInDim s ![] hb (constant S_ .f32 0x7F800000#32)))
      (constantI S_ 1 1#1) hr hu ix0 = 1#1) (i : s.Idx) : ∃ r : ℝ, a i = (r : EReal) := by
  have e := Host.reduce_andi_all _ _ hr hu ix0 h i
  have e' : Ideal.cmp .olt (max (a i) (-(a i))) (Ideal.ofBits .f32 0x7F800000#32) = 1#1 := e
  rw [inf_bits] at e'
  refine real_of_abs_lt_top (a i) ?_
  simpa [Ideal.cmp, StableHlo.Predicate.ofBool_eq_one_iff] using e'

/-- ONE LOWER-BOUND TEST. If the reduction by `and` of the bits `idx ≥ 0` (signed) is 1, every entry reads
    nonnegative. -/
theorem nonneg_of_all {s : Shape} {axes : List (Fin s.rank)} (hb : S_.BroadcastsInDim s (![] : Fin 0 → Fin s.rank))
    (hr : s.ReducesTo axes S_) (hu : 0 < S_.numel) (a : IVec s 32)
    (h : Host.reduce IntOp.andi (cmpi .sge a (broadcastInDim s ![] hb (constantI S_ 32 0#32)))
      (constantI S_ 1 1#1) hr hu ix0 = 1#1) (i : s.Idx) : 0 ≤ (a i).toInt := by
  have e := Host.reduce_andi_all _ _ hr hu ix0 h i
  have e' : IntOp.cmpi .sge (a i) 0#32 = 1#1 := e
  rw [IntOp.cmpi_sge] at e'
  simpa using e'

/-- ONE UPPER-BOUND TEST. If the reduction by `and` of the bits `idx < 100000` (signed) is 1, every entry reads below
    `100000`. -/
theorem lt_of_all {s : Shape} {axes : List (Fin s.rank)} (hb : S_.BroadcastsInDim s (![] : Fin 0 → Fin s.rank))
    (hr : s.ReducesTo axes S_) (hu : 0 < S_.numel) (a : IVec s 32)
    (h : Host.reduce IntOp.andi (cmpi .slt a (broadcastInDim s ![] hb (constantI S_ 32 100000#32)))
      (constantI S_ 1 1#1) hr hu ix0 = 1#1) (i : s.Idx) : (a i).toInt < 100000 := by
  have e := Host.reduce_andi_all _ _ hr hu ix0 h i
  have e' : IntOp.cmpi .slt (a i) 100000#32 = 1#1 := e
  rw [IntOp.cmpi_slt] at e'
  have : (100000#32 : BitVec 32).toInt = 100000 := by decide
  omega

variable [Facts]
open Facts

/-- The range of an index vector's entries the precondition states. -/
abbrev InRange (a : IVec S1600000 32) : Prop := ∀ i, 0 ≤ (a i).toInt ∧ (a i).toInt < 100000

/-- THE LAST PART of the conjunction: the carried bit, the carried lower-bound bits of the first index vector, and the
    three remaining tests (upper bound of the first index vector, both bounds of the second). -/
theorem part3_one (a2 a3 : IVec S1600000 32) (v48 : IVec S_ 1) (v50 : IVec S1600000 1)
    (h : fn_part3 (F := Ideal) a2 a3 v48 v50 ix0 = 1#1) :
    v48 ix0 = 1#1 ∧ (Host.reduce IntOp.andi v50 (constantI S_ 1 1#1) reducesTo_S1600000_S_d0 h_S_ ix0 = 1#1) ∧
      (∀ i, (a2 i).toInt < 100000) ∧ InRange a3 := by
  dsimp only [fn_part3] at h
  simp only [andi_apply, IntOp.andi_eq_one] at h
  obtain ⟨⟨⟨⟨h48, h51⟩, h55⟩, h59⟩, h63⟩ := h
  exact ⟨h48, h51, fun i => lt_of_all _ _ _ a2 h55 i, fun i => ⟨nonneg_of_all _ _ _ a3 h59 i, lt_of_all _ _ _ a3 h63 i⟩⟩

/-- THE MIDDLE PART: the carried bit, and both index ranges (its own tests of three float inputs are not needed). -/
theorem part2_one (a2 a3 : IVec S1600000 32) (a10 : FVec Ideal S192x64 .f32) (a11 a12 : FVec Ideal S192 .f32)
    (v33 : IVec S_ 1) (h : fn_part2 (F := Ideal) a2 a3 a10 a11 a12 v33 ix0 = 1#1) :
    v33 ix0 = 1#1 ∧ InRange a2 ∧ InRange a3 := by
  dsimp only [fn_part2] at h
  obtain ⟨h48, h51, h2, h3⟩ := part3_one _ _ _ _ h
  simp only [andi_apply, IntOp.andi_eq_one] at h48
  exact ⟨h48.1.1.1, fun i => ⟨nonneg_of_all _ _ _ a2 h51 i, h2 i⟩, h3⟩

/-- THE FIRST PART: the carried bit, and both index ranges (its own tests of four float inputs are not needed). -/
theorem part1_one (a2 a3 : IVec S1600000 32) (a7 : FVec Ideal S128x128 .f32) (a8 : FVec Ideal S128 .f32)
    (a9 : FVec Ideal S192x128 .f32) (a10 : FVec Ideal S192x64 .f32) (a11 a12 : FVec Ideal S192 .f32)
    (v13 : IVec S_ 1) (v16 : IVec S128x64 1)
    (h : fn_part1 (F := Ideal) a2 a3 a7 a8 a9 a10 a11 a12 v13 v16 ix0 = 1#1) :
    v13 ix0 = 1#1 ∧ InRange a2 ∧ InRange a3 := by
  dsimp only [fn_part1] at h
  obtain ⟨h33, h2, h3⟩ := part2_one _ _ _ _ _ _ h
  simp only [andi_apply, IntOp.andi_eq_one] at h33
  exact ⟨h33.1.1.1.1, h2, h3⟩

/-- THE PRECONDITION READ BACK: if the printed function of the thirteen inputs is the bit 1, the table `a0` and the
    weights `a5` hold real numbers and both index vectors lie in `[0, 100000)`. -/
theorem of_pre (a0 : FVec Ideal S100000x64 .f32) (a1 : FVec Ideal S1600000x64 .f32) (a2 a3 : IVec S1600000 32)
    (a4 : IVec S100000 1) (a5 a6 : FVec Ideal S128x64 .f32) (a7 : FVec Ideal S128x128 .f32) (a8 : FVec Ideal S128 .f32)
    (a9 : FVec Ideal S192x128 .f32) (a10 : FVec Ideal S192x64 .f32) (a11 a12 : FVec Ideal S192 .f32)
    (h : fn (F := Ideal) a0 a1 a2 a3 a4 a5 a6 a7 a8 a9 a10 a11 a12 = fun _ => 1#1) :
    (∀ i, ∃ r : ℝ, a0 i = (r : EReal)) ∧ (∀ i, ∃ r : ℝ, a5 i = (r : EReal)) ∧
      (∀ i, 0 ≤ (a2 i).toInt ∧ (a2 i).toInt < 100000) ∧ (∀ i, 0 ≤ (a3 i).toInt ∧ (a3 i).toInt < 100000) := by
  have h0 := congrFun h ix0
  dsimp only [fn] at h0
  obtain ⟨h13, h2, h3⟩ := part1_one _ _ _ _ _ _ _ _ _ _ h0
  simp only [andi_apply, IntOp.andi_eq_one] at h13
  obtain ⟨⟨h3', -⟩, h12⟩ := h13
  exact ⟨fun i => real_of_all _ _ _ a0 h3' i, fun i => real_of_all _ _ _ a5 h12 i, h2, h3⟩

end Cert.PreFacts

end
-- ==== Proof.BridgeMsg.lean ====
/-
  The messages of the two programs agree.

  The kernel projects the SUM of an edge's two endpoint states, the reference sums the two PROJECTED states; for
  finite states and weights these agree (a finite sum distributes), and with both index vectors inside the node
  table neither lookup meets the fill word. The features' projection, tanh, the second layer and its bias are the
  same formula on both sides.
-/
import proofs.«417138_j76501957477037_3_alg».proof.Defs
import proofs.«417138_j76501957477037_3_alg».proof.Proof.Gen.Pre_finite_inputs
import proofs.«417138_j76501957477037_3_alg».proof.Proof.HostGlue
import proofs.«417138_j76501957477037_3_alg».proof.Proof.Region0
import proofs.«417138_j76501957477037_3_alg».proof.Proof.RefStages
import proofs.«417138_j76501957477037_3_alg».proof.Proof.TakeRows
import proofs.«417138_j76501957477037_3_alg».proof.Proof.PreFacts
import Idealize.ShloMosaic.Lib.ValueLayout

set_option maxRecDepth 16384

noncomputable section

namespace Cert.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (ρ : Dev Cert.KernelIdeal.nD → PrngReg)

/-! ## The thirteen argument arrays, at their literal types -/

abbrev arg0 (c : Dev Cert.KernelIdeal.nD) : FVec Ideal Cert.KernelIdeal.S100000x64 .f32 := m ((c.tc : Thread Cert.KernelIdeal.nD Cert.KernelIdeal.τ).loc Cert.KernelIdeal.main_arg0)
abbrev arg1 (c : Dev Cert.KernelIdeal.nD) : FVec Ideal Cert.KernelIdeal.S1600000x64 .f32 := m ((c.tc : Thread Cert.KernelIdeal.nD Cert.KernelIdeal.τ).loc Cert.KernelIdeal.main_arg1)
abbrev arg2 (c : Dev Cert.KernelIdeal.nD) : IVec Cert.KernelIdeal.S1600000 32 := m ((c.tc : Thread Cert.KernelIdeal.nD Cert.KernelIdeal.τ).loc Cert.KernelIdeal.main_arg2)
abbrev arg3 (c : Dev Cert.KernelIdeal.nD) : IVec Cert.KernelIdeal.S1600000 32 := m ((c.tc : Thread Cert.KernelIdeal.nD Cert.KernelIdeal.τ).loc Cert.KernelIdeal.main_arg3)
abbrev arg4 (c : Dev Cert.KernelIdeal.nD) : IVec Cert.KernelIdeal.S100000 1 := m ((c.tc : Thread Cert.KernelIdeal.nD Cert.KernelIdeal.τ).loc Cert.KernelIdeal.main_arg4)
abbrev arg5 (c : Dev Cert.KernelIdeal.nD) : FVec Ideal Cert.KernelIdeal.S128x64 .f32 := m ((c.tc : Thread Cert.KernelIdeal.nD Cert.KernelIdeal.τ).loc Cert.KernelIdeal.main_arg5)
abbrev arg6 (c : Dev Cert.KernelIdeal.nD) : FVec Ideal Cert.KernelIdeal.S128x64 .f32 := m ((c.tc : Thread Cert.KernelIdeal.nD Cert.KernelIdeal.τ).loc Cert.KernelIdeal.main_arg6)
abbrev arg7 (c : Dev Cert.KernelIdeal.nD) : FVec Ideal Cert.KernelIdeal.S128x128 .f32 := m ((c.tc : Thread Cert.KernelIdeal.nD Cert.KernelIdeal.τ).loc Cert.KernelIdeal.main_arg7)
abbrev arg8 (c : Dev Cert.KernelIdeal.nD) : FVec Ideal Cert.KernelIdeal.S128 .f32 := m ((c.tc : Thread Cert.KernelIdeal.nD Cert.KernelIdeal.τ).loc Cert.KernelIdeal.main_arg8)
abbrev arg9 (c : Dev Cert.KernelIdeal.nD) : FVec Ideal Cert.KernelIdeal.S192x128 .f32 := m ((c.tc : Thread Cert.KernelIdeal.nD Cert.KernelIdeal.τ).loc Cert.KernelIdeal.main_arg9)
abbrev arg10 (c : Dev Cert.KernelIdeal.nD) : FVec Ideal Cert.KernelIdeal.S192x64 .f32 := m ((c.tc : Thread Cert.KernelIdeal.nD Cert.KernelIdeal.τ).loc Cert.KernelIdeal.main_arg10)
abbrev arg11 (c : Dev Cert.KernelIdeal.nD) : FVec Ideal Cert.KernelIdeal.S192 .f32 := m ((c.tc : Thread Cert.KernelIdeal.nD Cert.KernelIdeal.τ).loc Cert.KernelIdeal.main_arg11)
abbrev arg12 (c : Dev Cert.KernelIdeal.nD) : FVec Ideal Cert.KernelIdeal.S192 .f32 := m ((c.tc : Thread Cert.KernelIdeal.nD Cert.KernelIdeal.τ).loc Cert.KernelIdeal.main_arg12)

/-- A rank-1 array as a one-row array reads, at (0, g), entry g. -/
theorem row_apply {k : ℕ} (v : (⟨1, ![k]⟩ : Shape).Idx → EReal) (hc : (⟨1, ![k]⟩ : Shape).ShapeCasts ⟨2, ![1, k]⟩) (g : Fin k) :
    shapeCast ⟨2, ![1, k]⟩ v hc (ix2 0 g) = v (ix1 g) :=
  shapeCast_a_1a_apply v hc 0 g

/-! ## Over arbitrary arrays -/

section Pure

variable (X0 : FVec Ideal Cert.KernelIdeal.S100000x64 .f32) (X1 : FVec Ideal Cert.KernelIdeal.S1600000x64 .f32)
  (a2 a3 : IVec Cert.KernelIdeal.S1600000 32) (X5 X6 : FVec Ideal Cert.KernelIdeal.S128x64 .f32)
  (X7 : FVec Ideal Cert.KernelIdeal.S128x128 .f32) (X8 : FVec Ideal Cert.KernelIdeal.S128 .f32)

/-- The sum of two arrays, narrowed (the identity over the extended reals), at an index. -/
theorem narrowed_sum_apply (P Q : FVec Ideal Cert.KernelIdeal.S1600000x64 .f32) (i : Cert.KernelIdeal.S1600000x64.Idx) :
    truncf .bf16 (addf P Q) Cert.KernelIdeal.Facts₀.bitsLt_bf16_f32 i = P i + Q i := rfl

/-- The summed endpoint states: row e is the sum of the two endpoint rows of the node table, when both endpoints
    lie inside the table. -/
theorem xs_pure (e : Fin 1600000) (k' : Fin 64) (rS rD : Fin 100000)
    (hrS : (a2 (ix1 e)).toInt = (rS.val : Int)) (hrD : (a3 (ix1 e)).toInt = (rD.val : Int)) :
    truncf .bf16 (addf (Cert.KernelIdeal.HostGlue.takeRows X0 a2) (Cert.KernelIdeal.HostGlue.takeRows X0 a3)) Cert.KernelIdeal.Facts₀.bitsLt_bf16_f32 (ix2 e k')
      = X0 (ix2 rS k') + X0 (ix2 rD k') :=
  (narrowed_sum_apply _ _ _).trans
    (congrArg₂ (· + ·) (Cert.TakeRows.takeRows_apply X0 a2 e k' rS hrS) (Cert.TakeRows.takeRows_apply X0 a3 e k' rD hrD))

variable (hx0 : ∀ i, ∃ r : ℝ, X0 i = (r : EReal)) (hx5 : ∀ i, ∃ r : ℝ, X5 i = (r : EReal))
  (hr2 : ∀ i, 0 ≤ (a2 i).toInt ∧ (a2 i).toInt < 100000) (hr3 : ∀ i, 0 ≤ (a3 i).toInt ∧ (a3 i).toInt < 100000)
  (XS : FVec Ideal Cert.KernelIdeal.S1600000x64 .bf16)
  (hXS : XS = truncf .bf16 (addf (Cert.KernelIdeal.HostGlue.takeRows X0 a2) (Cert.KernelIdeal.HostGlue.takeRows X0 a3)) Cert.KernelIdeal.Facts₀.bitsLt_bf16_f32)

include hx0 hx5 hr2 hr3 hXS in
/-- The kernel's pre-activation of edge e is the reference's: the projection of the summed endpoint rows is the sum
    of the two projections, for finite states and weights. -/
theorem pre_pure (e : Fin 1600000) (k : Fin 128) :
    Cert.Spec.preAct (fun k' => XS (ix2 e k')) (fun k' => X1 (ix2 e k')) X5 X6 k
      = (Cert.ReferenceIdeal.Read.val_main_v10 (F := Ideal) X0 a2 X5 (ix2 e k)
          + Cert.ReferenceIdeal.Read.val_main_v17 (F := Ideal) X0 a3 X5 (ix2 e k))
        + ∑ k' : Fin 64, X1 (ix2 e k') * X6 (ix2 k k') := by
  obtain ⟨hs0, hs1⟩ := hr2 (ix1 e)
  obtain ⟨hd0, hd1⟩ := hr3 (ix1 e)
  obtain ⟨rS, hrS⟩ : ∃ r : Fin 100000, (a2 (ix1 e)).toInt = (r.val : Int) :=
    ⟨⟨(a2 (ix1 e)).toInt.toNat, by omega⟩, (Int.toNat_of_nonneg hs0).symm⟩
  obtain ⟨rD, hrD⟩ : ∃ r : Fin 100000, (a3 (ix1 e)).toInt = (r.val : Int) :=
    ⟨⟨(a3 (ix1 e)).toInt.toNat, by omega⟩, (Int.toNat_of_nonneg hd0).symm⟩
  unfold Cert.Spec.preAct
  rw [Cert.TakeRows.refTake_src X0 a2 X5 e k rS hrS, Cert.TakeRows.refTake_dst X0 a3 X5 e k rD hrD,
    Cert.RefStages.nf_at, Cert.RefStages.nf_at]
  refine congrArg (· + ∑ k' : Fin 64, X1 (ix2 e k') * X6 (ix2 k k')) ?_
  refine Eq.trans ?_ (Cert.Spec.sum_add_mul (fun k' : Fin 64 => X0 (ix2 rS k')) (fun k' => X0 (ix2 rD k'))
    (fun k' => X5 (ix2 k k')) (fun k' => hx0 _) (fun k' => hx0 _) (fun k' => hx5 _))
  refine Finset.sum_congr rfl fun k' _ => ?_
  exact congrArg (· * X5 (ix2 k k')) ((congrFun hXS (ix2 e k')).trans (xs_pure X0 a2 a3 e k' rS rD hrS hrD))

variable (B2 : FVec Ideal Cert.KernelIdeal.S1x128 .f32) (hB2 : B2 = shapeCast Cert.KernelIdeal.S1x128 X8 Cert.KernelIdeal.Facts₀.shapeCasts_S128_S1x128)

include hx0 hx5 hr2 hr3 hXS hB2 in
/-- One edge's message on the two sides. -/
theorem msg_pure (e : Fin 1600000) (j : Fin 128) :
    Cert.Spec.msgRow (fun k' => XS (ix2 e k')) (fun k' => X1 (ix2 e k')) X5 X6 X7 (fun j' => B2 (ix2 0 j')) j
      = Cert.ReferenceIdeal.Read.val_main_v25 (F := Ideal) X0 X1 a2 a3 X5 X6 X7 X8 (ix2 e j) := by
  rw [Cert.RefStages.msg_at]
  unfold Cert.Spec.msgRow
  have e_b2 : (fun j' : Fin 128 => B2 (ix2 0 j')) = fun j' => X8 (ix1 j') :=
    funext fun j' => by rw [hB2]; exact row_apply _ _ j'
  rw [e_b2]
  exact congrArg (fun p => Cert.Spec.msgOfPre p X7 (fun j' => X8 (ix1 j')) j)
    (funext fun k => pre_pure X0 X1 a2 a3 X5 X6 hx0 hx5 hr2 hr3 XS hXS e k)

end Pure

/-! ## At the run's memory -/

/-- The kernel's message array is the reference's: entry (e, j) on both sides is the message of edge e at unit j. -/
theorem msg_eq (hpre : Cert.Pre_KernelIdeal m) (c : Dev Cert.KernelIdeal.nD) :
    (Cert.KernelIdeal.Gen.dat0 (Cert.KernelIdeal.Gen.V3 m ρ) c).arrAt 6 Cert.KernelIdeal.cfg0.N
      = Cert.ReferenceIdeal.Read.val_main_v25 (F := Ideal) (arg0 m c) (arg1 m c) (arg2 m c) (arg3 m c) (arg5 m c) (arg6 m c) (arg7 m c) (arg8 m c) := by
  obtain ⟨hx0, hx5, hr2, hr3⟩ := Cert.PreFacts.of_pre _ _ _ _ _ _ _ _ _ _ _ _ _ (hpre c)
  funext i
  obtain ⟨e, j, rfl⟩ : ∃ (e : Fin 1600000) (j : Fin 128), i = ix2 e j := ⟨i 0, i 1, eq_ix2 i⟩
  refine (Cert.KernelIdeal.Region0.value (Cert.KernelIdeal.Gen.V3 m ρ) c e j).trans ?_
  have e_ef : Cert.KernelIdeal.Region0.efArr (Cert.KernelIdeal.Gen.V3 m ρ) c = arg1 m c := Cert.KernelIdeal.HostGlue.W3_arg1 m ρ c
  have e_wn : Cert.KernelIdeal.Region0.wnArr (Cert.KernelIdeal.Gen.V3 m ρ) c = arg5 m c := Cert.KernelIdeal.HostGlue.W3_arg5 m ρ c
  have e_wf : Cert.KernelIdeal.Region0.wfArr (Cert.KernelIdeal.Gen.V3 m ρ) c = arg6 m c := Cert.KernelIdeal.HostGlue.W3_arg6 m ρ c
  have e_w2 : Cert.KernelIdeal.Region0.w2Arr (Cert.KernelIdeal.Gen.V3 m ρ) c = arg7 m c := Cert.KernelIdeal.HostGlue.W3_arg7 m ρ c
  rw [e_ef, e_wn, e_wf, e_w2]
  exact msg_pure (arg0 m c) (arg1 m c) (arg2 m c) (arg3 m c) (arg5 m c) (arg6 m c) (arg7 m c) (arg8 m c) hx0 hx5 hr2 hr3
    (Cert.KernelIdeal.Region0.xsArr (Cert.KernelIdeal.Gen.V3 m ρ) c) (Cert.KernelIdeal.HostGlue.W3_v3 m ρ c)
    (Cert.KernelIdeal.Region0.b2Arr (Cert.KernelIdeal.Gen.V3 m ρ) c) (Cert.KernelIdeal.HostGlue.W3_v4 m ρ c) e j

end Cert.Bridge

end
-- ==== Proof.Bridge.lean ====
/-
  The two programs compute one function.

  The messages agree (the module before this one). The scatter-adds are then the same operations of equal
  messages by equal index vectors; the GRU update is the same row formula of equal summed messages, the same
  states, weights and biases; the mask's select between the new and the old state is the same.
-/
import proofs.«417138_j76501957477037_3_alg».proof.Defs
import proofs.«417138_j76501957477037_3_alg».proof.Proof.Gen.Pre_finite_inputs
import proofs.«417138_j76501957477037_3_alg».proof.Proof.HostGlue
import proofs.«417138_j76501957477037_3_alg».proof.Proof.Region1
import proofs.«417138_j76501957477037_3_alg».proof.Proof.RefStages
import proofs.«417138_j76501957477037_3_alg».proof.Proof.BridgeMsg
import Idealize.ShloMosaic.Lib.ValueLayout

set_option maxRecDepth 16384

noncomputable section

namespace Cert.Bridge

open Idealize.ShloMosaic Idealize.ShloMosaic.TcCoe Idealize.ShloMosaic.ValueIdx Idealize.SL.Sem
open scoped BigOperators

variable (m : (ℓ : Loc Cert.KernelIdeal.nD Cert.KernelIdeal.τ Cert.KernelIdeal.sig) → Buf (Elt Ideal) ℓ)
  (ρ : Dev Cert.KernelIdeal.nD → PrngReg)

/-! ## Over arbitrary arrays -/

section Pure

variable (X0 : FVec Ideal Cert.KernelIdeal.S100000x64 .f32) (X1 : FVec Ideal Cert.KernelIdeal.S1600000x64 .f32)
  (a2 a3 : IVec Cert.KernelIdeal.S1600000 32) (a4 : IVec Cert.KernelIdeal.S100000 1) (X5 X6 : FVec Ideal Cert.KernelIdeal.S128x64 .f32)
  (X7 : FVec Ideal Cert.KernelIdeal.S128x128 .f32) (X8 : FVec Ideal Cert.KernelIdeal.S128 .f32)
  (X9 : FVec Ideal Cert.KernelIdeal.S192x128 .f32) (X10 : FVec Ideal Cert.KernelIdeal.S192x64 .f32) (X11 X12 : FVec Ideal Cert.KernelIdeal.S192 .f32)

/-- The summed messages per node: the same two scatter-adds of equal messages. -/
theorem scatter_pure (MSG : FVec Ideal Cert.KernelIdeal.S1600000x128 .f32) (hMSG : MSG = Cert.ReferenceIdeal.Read.val_main_v25 (F := Ideal) X0 X1 a2 a3 X5 X6 X7 X8) :
    Cert.KernelIdeal.HostGlue.scatterBoth a2 a3 MSG = Cert.ReferenceIdeal.Read.val_main_v40 (F := Ideal) X0 X1 a2 a3 X5 X6 X7 X8 := by
  subst hMSG
  unfold Cert.KernelIdeal.HostGlue.scatterBoth Cert.KernelIdeal.HostGlue.wrapIdx
  unfold Cert.ReferenceIdeal.Read.val_main_v40 Cert.ReferenceIdeal.Read.val_main_v33
    Cert.ReferenceIdeal.Read.val_main_v39 Cert.ReferenceIdeal.Read.val_main_v38 Cert.ReferenceIdeal.Read.val_main_v35 Cert.ReferenceIdeal.Read.val_main_v34 Cert.ReferenceIdeal.Read.val_main_c_5 Cert.ReferenceIdeal.Read.val_main_v37
    Cert.ReferenceIdeal.Read.val_main_v36 Cert.ReferenceIdeal.Read.val_main_c_6
    Cert.ReferenceIdeal.Read.val_main_v32 Cert.ReferenceIdeal.Read.val_main_v31 Cert.ReferenceIdeal.Read.val_main_v28 Cert.ReferenceIdeal.Read.val_main_v27 Cert.ReferenceIdeal.Read.val_main_c_3 Cert.ReferenceIdeal.Read.val_main_v30
    Cert.ReferenceIdeal.Read.val_main_v29 Cert.ReferenceIdeal.Read.val_main_c_4
    Cert.ReferenceIdeal.Read.val_main_v26 Cert.ReferenceIdeal.Read.val_main_cst
  rfl

/-- One node's new state on the two sides. -/
theorem gru_pure (INP : FVec Ideal Cert.KernelIdeal.S100000x128 .f32) (hINP : INP = Cert.ReferenceIdeal.Read.val_main_v40 (F := Ideal) X0 X1 a2 a3 X5 X6 X7 X8)
    (BIH BHH : FVec Ideal Cert.KernelIdeal.S1x192 .f32)
    (hBIH : BIH = shapeCast Cert.KernelIdeal.S1x192 X11 Cert.KernelIdeal.Facts₀.shapeCasts_S192_S1x192)
    (hBHH : BHH = shapeCast Cert.KernelIdeal.S1x192 X12 Cert.KernelIdeal.Facts₀.shapeCasts_S192_S1x192) (n : Fin 100000) (j : Fin 64) :
    Cert.ReferenceIdeal.Read.val_main_v78 (F := Ideal) X0 X1 a2 a3 X5 X6 X7 X8 X9 X10 X11 X12 (ix2 n j)
      = Cert.Spec.gruRow (fun k => INP (ix2 n k)) (fun k => X0 (ix2 n k)) X9 X10 (fun g => BIH (ix2 0 g)) (fun g => BHH (ix2 0 g)) j := by
  rw [Cert.RefStages.gru_at]
  have e1 : (fun g : Fin 192 => BIH (ix2 0 g)) = fun g => X11 (ix1 g) := funext fun g => by rw [hBIH]; exact row_apply _ _ g
  have e2 : (fun g : Fin 192 => BHH (ix2 0 g)) = fun g => X12 (ix1 g) := funext fun g => by rw [hBHH]; exact row_apply _ _ g
  rw [e1, e2, hINP]

/-- The result: the same select of equal new states. -/
theorem select_pure (NEW : FVec Ideal Cert.KernelIdeal.S100000x64 .f32) (hNEW : Cert.ReferenceIdeal.Read.val_main_v78 (F := Ideal) X0 X1 a2 a3 X5 X6 X7 X8 X9 X10 X11 X12 = NEW) :
    Cert.ReferenceIdeal.Read.val_main_v80 (F := Ideal) X0 X1 a2 a3 a4 X5 X6 X7 X8 X9 X10 X11 X12
      = select (broadcastInDim Cert.KernelIdeal.S100000x64 ![0, 1] Cert.KernelIdeal.Facts₀.bcast_S100000x1_S100000x64_0_1
          (broadcastInDim Cert.KernelIdeal.S100000x1 ![0] Cert.KernelIdeal.Facts₀.bcast_S100000_S100000x1_0 a4)) NEW X0 := by
  subst hNEW
  unfold Cert.ReferenceIdeal.Read.val_main_v80 Cert.ReferenceIdeal.Read.val_main_call0_v0 Cert.ReferenceIdeal.Read.val_main_v79
  rfl

end Pure

/-! ## At the run's memory -/

/-- The summed messages per node agree. -/
theorem summed_eq (hpre : Cert.Pre_KernelIdeal m) (c : Dev Cert.KernelIdeal.nD) :
    Cert.KernelIdeal.Region1.inArr (Cert.KernelIdeal.Gen.V5 m ρ) c
      = Cert.ReferenceIdeal.Read.val_main_v40 (F := Ideal) (arg0 m c) (arg1 m c) (arg2 m c) (arg3 m c) (arg5 m c) (arg6 m c) (arg7 m c) (arg8 m c) :=
  (Cert.KernelIdeal.HostGlue.W5_v20 m ρ c).trans (scatter_pure _ _ _ _ _ _ _ _ _ (msg_eq m ρ hpre c))

/-- The new states agree, entry by entry. -/
theorem states_eq (hpre : Cert.Pre_KernelIdeal m) (c : Dev Cert.KernelIdeal.nD) :
    Cert.ReferenceIdeal.Read.val_main_v78 (F := Ideal) (arg0 m c) (arg1 m c) (arg2 m c) (arg3 m c) (arg5 m c) (arg6 m c) (arg7 m c) (arg8 m c) (arg9 m c) (arg10 m c) (arg11 m c) (arg12 m c)
      = (Cert.KernelIdeal.Gen.dat1 (Cert.KernelIdeal.Gen.V5 m ρ) c).arrAt 6 Cert.KernelIdeal.cfg1.N := by
  funext i
  obtain ⟨n, j, rfl⟩ : ∃ (n : Fin 100000) (j : Fin 64), i = ix2 n j := ⟨i 0, i 1, eq_ix2 i⟩
  refine Eq.trans ?_ (Cert.KernelIdeal.Region1.value (Cert.KernelIdeal.Gen.V5 m ρ) c n j).symm
  have e_h : Cert.KernelIdeal.Region1.hArr (Cert.KernelIdeal.Gen.V5 m ρ) c = arg0 m c := Cert.KernelIdeal.HostGlue.W5_arg0 m ρ c
  have e_wih : Cert.KernelIdeal.Region1.wihArr (Cert.KernelIdeal.Gen.V5 m ρ) c = arg9 m c := Cert.KernelIdeal.HostGlue.W5_arg9 m ρ c
  have e_whh : Cert.KernelIdeal.Region1.whhArr (Cert.KernelIdeal.Gen.V5 m ρ) c = arg10 m c := Cert.KernelIdeal.HostGlue.W5_arg10 m ρ c
  rw [e_h, e_wih, e_whh]
  exact gru_pure (arg0 m c) (arg1 m c) (arg2 m c) (arg3 m c) (arg5 m c) (arg6 m c) (arg7 m c) (arg8 m c) (arg9 m c) (arg10 m c)
    (arg11 m c) (arg12 m c) (Cert.KernelIdeal.Region1.inArr (Cert.KernelIdeal.Gen.V5 m ρ) c) (summed_eq m ρ hpre c)
    (Cert.KernelIdeal.Region1.bihArr (Cert.KernelIdeal.Gen.V5 m ρ) c) (Cert.KernelIdeal.Region1.bhhArr (Cert.KernelIdeal.Gen.V5 m ρ) c)
    (Cert.KernelIdeal.HostGlue.W5_v21 m ρ c) (Cert.KernelIdeal.HostGlue.W5_v22 m ρ c) n j

/-- The reference's result is the kernel's, from memories agreeing on the arguments. -/
theorem result_eq (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v80 m' c = Cert.KernelIdeal.Gen.W8 m ρ c (Proc.devRef .tc Cert.KernelIdeal.main_v25) := by
  obtain ⟨h0, h1, h2, h3, h4, h5, h6, h7, h8, h9, h10, h11, h12⟩ := hagree
  rw [Cert.ReferenceIdeal.Read.val_main_v80_eq, h0, h1, h2, h3, h4, h5, h6, h7, h8, h9, h10, h11, h12]
  exact (select_pure (arg0 m c) (arg1 m c) (arg2 m c) (arg3 m c) (arg4 m c) (arg5 m c) (arg6 m c) (arg7 m c) (arg8 m c)
    (arg9 m c) (arg10 m c) (arg11 m c) (arg12 m c) _ (states_eq m ρ hpre c)).trans (Cert.KernelIdeal.HostGlue.result_eq m ρ c).symm

end Cert.Bridge

end
-- ==== Proof.lean ====
/-
  One message-passing step over a graph, in two pallas_calls, against its jnp reference, over the extended reals.

  For every edge e with endpoints s = source[e], d = dest[e] (both inside the node table):
    message[e] = tanh ((nodes[s] + nodes[d]) · Wnᵀ + features[e] · Wfᵀ) · W2ᵀ + b2        (the kernel)
    message[e] = tanh (nodes[s] · Wnᵀ + nodes[d] · Wnᵀ + features[e] · Wfᵀ) · W2ᵀ + b2    (the reference)
  equal because a finite sum of products distributes over the sum of two finite rows. Both programs then add
  every message into its destination's and its source's row of a zero array (the same two scatter-adds), update
  each node's state by the same GRU row formula, and keep the old state where the update mask is clear.

  The three frames are the generated ones (the reference's is its generated run with the result dropped); the
  idealization rewrote nothing, so `preserves` is trivial; `algebraic` pairs the kernel's run, its result named at
  the last boundary's contents, with the reference's generated run, and `Cert.Bridge.result_eq` says the two results
  are one array.
-/
import proofs.«417138_j76501957477037_3_alg».proof.Defs
import proofs.«417138_j76501957477037_3_alg».proof.Proof.Gen.Kernel
import proofs.«417138_j76501957477037_3_alg».proof.Proof.Gen.Kernel.Skeleton
import proofs.«417138_j76501957477037_3_alg».proof.Proof.Gen.Kernel.Launch
import proofs.«417138_j76501957477037_3_alg».proof.Proof.Gen.Kernel.Points
import proofs.«417138_j76501957477037_3_alg».proof.Proof.Gen.Kernel.Frame
import proofs.«417138_j76501957477037_3_alg».proof.Proof.Gen.KernelIdeal
import proofs.«417138_j76501957477037_3_alg».proof.Proof.Gen.KernelIdeal.Skeleton
import proofs.«417138_j76501957477037_3_alg».proof.Proof.Gen.KernelIdeal.Launch
import proofs.«417138_j76501957477037_3_alg».proof.Proof.Gen.KernelIdeal.Points
import proofs.«417138_j76501957477037_3_alg».proof.Proof.Gen.KernelIdeal.Frame
import proofs.«417138_j76501957477037_3_alg».proof.Proof.Gen.ReferenceIdeal
import proofs.«417138_j76501957477037_3_alg».proof.Proof.Gen.ReferenceIdeal.Run
import proofs.«417138_j76501957477037_3_alg».proof.Proof.Gen.Pre_finite_inputs
import proofs.«417138_j76501957477037_3_alg».proof.Proof.KernelRun
import proofs.«417138_j76501957477037_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run, from memories agreeing on the arguments, to the same result array. -/
theorem algebraic : Cert.algebraic_KernelIdeal_ReferenceIdeal := by
  intro m ρ m' ρ' hpre hagree
  refine ⟨fun c => Cert.KernelIdeal.Gen.W8 m ρ c (Proc.devRef .tc Cert.KernelIdeal.main_v25), Cert.KernelIdeal.Gen.run m ρ, ?_⟩
  refine (θ_run Cert.ReferenceIdeal.defs _ _).mono (fun _ h c => ⟨(h c).1.trans ?_, (h c).2⟩)
    (Cert.ReferenceIdeal.Value.run (F := Ideal) m' ρ')
  exact Cert.Bridge.result_eq m ρ m' hpre c (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
